-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S11008x256 : Shape := ⟨2, ![11008, 256]⟩
abbrev S16x2 : Shape := ⟨2, ![16, 2]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S16x2 : S_.BroadcastsInDim S16x2 (![] : Fin 0 → Fin S16x2.rank)
  reducesTo_S16x2_S_d0_1 : S16x2.ReducesTo [0, 1] S_

variable [Facts]

def fn {F : FTy → Type} [FloatOps F] (main_arg0 : FVec F S8x64x4096 .f32) (main_arg1 : IVec S11008x256 32) (main_arg2 : FVec F S16x2 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S16x2 .f32 := Host.absf main_arg2
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  main_v8
-- ==== Kernel.lean ====
abbrev S8x64x4096 : Shape := ⟨3, ![8, 64, 4096]⟩
abbrev S11008x256 : Shape := ⟨2, ![11008, 256]⟩
abbrev S16x2 : Shape := ⟨2, ![16, 2]⟩
abbrev S4096 : Shape := ⟨1, ![4096]⟩
abbrev S512x4096 : Shape := ⟨2, ![512, 4096]⟩
abbrev S_ : Shape := ⟨0, ![]⟩
abbrev S4096x1 : Shape := ⟨2, ![4096, 1]⟩
abbrev S512x11008 : Shape := ⟨2, ![512, 11008]⟩
abbrev S256x256 : Shape := ⟨2, ![256, 256]⟩
abbrev S512x256 : Shape := ⟨2, ![512, 256]⟩
abbrev S1x1 : Shape := ⟨2, ![1, 1]⟩
abbrev S8x64x11008 : Shape := ⟨3, ![8, 64, 11008]⟩

abbrev nBuf : Space → Nat
  | .hbm => 15
  | .vmem => 6
  | .smem => 0
  | _ => 0

abbrev bufTy : (tb : Table) → Fin (tcTables nBuf tb) → BufTy
  | .hbm, ⟨0, _⟩ => ⟨S8x64x4096, .f32⟩
  | .hbm, ⟨1, _⟩ => ⟨S11008x256, .i32⟩
  | .hbm, ⟨2, _⟩ => ⟨S16x2, .f32⟩
  | .hbm, ⟨3, _⟩ => ⟨S4096, .i32⟩
  | .hbm, ⟨4, _⟩ => ⟨S4096, .i1⟩
  | .hbm, ⟨5, _⟩ => ⟨S512x4096, .f32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S512x4096, .f32⟩
  | .hbm, ⟨12, _⟩ => ⟨S512x4096, .bf16⟩
  | .hbm, ⟨13, _⟩ => ⟨S512x11008, .f32⟩
  | .hbm, ⟨14, _⟩ => ⟨S8x64x11008, .f32⟩
  | .local _ .vmem, ⟨0, _⟩ => ⟨S256x256, .i32⟩
  | .local _ .vmem, ⟨1, _⟩ => ⟨S256x256, .i32⟩
  | .local _ .vmem, ⟨2, _⟩ => ⟨S16x2, .f32⟩
  | .local _ .vmem, ⟨3, _⟩ => ⟨S512x4096, .bf16⟩
  | .local _ .vmem, ⟨4, _⟩ => ⟨S512x256, .f32⟩
  | .local _ .vmem, ⟨5, _⟩ => ⟨S512x256, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x4096_S512x4096 : S8x64x4096.ShapeCasts S512x4096
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S16x2_S16x2_0_0 : ∀ a, (![0, 0] : Fin 2 → Nat) a + S16x2.size a ≤ S16x2.size a
  h_S16x2 : 0 < S16x2.numel
  slices_S16x2_o0_0_S1x1 : S16x2.Slices ![0, 0] S1x1
  inpos_S1x1_p0_0 : ∀ a, (![0, 0] : Fin 2 → Nat) a < S1x1.size a
  slices_S16x2_o1_0_S1x1 : S16x2.Slices ![1, 0] S1x1
  slices_S16x2_o2_0_S1x1 : S16x2.Slices ![2, 0] S1x1
  slices_S16x2_o3_0_S1x1 : S16x2.Slices ![3, 0] S1x1
  slices_S16x2_o4_0_S1x1 : S16x2.Slices ![4, 0] S1x1
  slices_S16x2_o5_0_S1x1 : S16x2.Slices ![5, 0] S1x1
  slices_S16x2_o6_0_S1x1 : S16x2.Slices ![6, 0] S1x1
  slices_S16x2_o7_0_S1x1 : S16x2.Slices ![7, 0] S1x1
  slices_S16x2_o8_0_S1x1 : S16x2.Slices ![8, 0] S1x1
  slices_S16x2_o9_0_S1x1 : S16x2.Slices ![9, 0] S1x1
  slices_S16x2_o10_0_S1x1 : S16x2.Slices ![10, 0] S1x1
  slices_S16x2_o11_0_S1x1 : S16x2.Slices ![11, 0] S1x1
  slices_S16x2_o12_0_S1x1 : S16x2.Slices ![12, 0] S1x1
  slices_S16x2_o13_0_S1x1 : S16x2.Slices ![13, 0] S1x1
  slices_S16x2_o14_0_S1x1 : S16x2.Slices ![14, 0] S1x1
  slices_S16x2_o15_0_S1x1 : S16x2.Slices ![15, 0] S1x1
  slices_S16x2_o0_1_S1x1 : S16x2.Slices ![0, 1] S1x1
  slices_S16x2_o1_1_S1x1 : S16x2.Slices ![1, 1] S1x1
  slices_S16x2_o2_1_S1x1 : S16x2.Slices ![2, 1] S1x1
  slices_S16x2_o3_1_S1x1 : S16x2.Slices ![3, 1] S1x1
  slices_S16x2_o4_1_S1x1 : S16x2.Slices ![4, 1] S1x1
  slices_S16x2_o5_1_S1x1 : S16x2.Slices ![5, 1] S1x1
  slices_S16x2_o6_1_S1x1 : S16x2.Slices ![6, 1] S1x1
  slices_S16x2_o7_1_S1x1 : S16x2.Slices ![7, 1] S1x1
  slices_S16x2_o8_1_S1x1 : S16x2.Slices ![8, 1] S1x1
  slices_S16x2_o9_1_S1x1 : S16x2.Slices ![9, 1] S1x1
  slices_S16x2_o10_1_S1x1 : S16x2.Slices ![10, 1] S1x1
  slices_S16x2_o11_1_S1x1 : S16x2.Slices ![11, 1] S1x1
  slices_S16x2_o12_1_S1x1 : S16x2.Slices ![12, 1] S1x1
  slices_S16x2_o13_1_S1x1 : S16x2.Slices ![13, 1] S1x1
  slices_S16x2_o14_1_S1x1 : S16x2.Slices ![14, 1] S1x1
  slices_S16x2_o15_1_S1x1 : S16x2.Slices ![15, 1] S1x1
  inb_S512x4096_S512x256_0_0 : ∀ a, (![0, 0] : Fin 2 → Nat) a + S512x256.size a ≤ S512x4096.size a
  h_S512x256 : 0 < S512x256.numel
  shapeCasts_S512x256_S512x256 : S512x256.ShapeCasts S512x256
  inb_S512x4096_S512x256_0_256 : ∀ a, (![0, 256] : Fin 2 → Nat) a + S512x256.size a ≤ S512x4096.size a
  inb_S512x4096_S512x256_0_512 : ∀ a, (![0, 512] : Fin 2 → Nat) a + S512x256.size a ≤ S512x4096.size a
  inb_S512x4096_S512x256_0_768 : ∀ a, (![0, 768] : Fin 2 → Nat) a + S512x256.size a ≤ S512x4096.size a
  inb_S512x4096_S512x256_0_1024 : ∀ a, (![0, 1024] : Fin 2 → Nat) a + S512x256.size a ≤ S512x4096.size a
  inb_S512x4096_S512x256_0_1280 : ∀ a, (![0, 1280] : Fin 2 → Nat) a + S512x256.size a ≤ S512x4096.size a
  inb_S512x4096_S512x256_0_1536 : ∀ a, (![0, 1536] : Fin 2 → Nat) a + S512x256.size a ≤ S512x4096.size a
  inb_S512x4096_S512x256_0_1792 : ∀ a, (![0, 1792] : Fin 2 → Nat) a + S512x256.size a ≤ S512x4096.size a
  inb_S512x4096_S512x256_0_2048 : ∀ a, (![0, 2048] : Fin 2 → Nat) a + S512x256.size a ≤ S512x4096.size a
  inb_S512x4096_S512x256_0_2304 : ∀ a, (![0, 2304] : Fin 2 → Nat) a + S512x256.size a ≤ S512x4096.size a
  inb_S512x4096_S512x256_0_2560 : ∀ a, (![0, 2560] : Fin 2 → Nat) a + S512x256.size a ≤ S512x4096.size a
  inb_S512x4096_S512x256_0_2816 : ∀ a, (![0, 2816] : Fin 2 → Nat) a + S512x256.size a ≤ S512x4096.size a
  inb_S512x4096_S512x256_0_3072 : ∀ a, (![0, 3072] : Fin 2 → Nat) a + S512x256.size a ≤ S512x4096.size a
  inb_S512x4096_S512x256_0_3328 : ∀ a, (![0, 3328] : Fin 2 → Nat) a + S512x256.size a ≤ S512x4096.size a
  inb_S512x4096_S512x256_0_3584 : ∀ a, (![0, 3584] : Fin 2 → Nat) a + S512x256.size a ≤ S512x4096.size a
  inb_S512x4096_S512x256_0_3840 : ∀ a, (![0, 3840] : Fin 2 → Nat) a + S512x256.size a ≤ S512x4096.size a
  inb_S512x256_S512x256_0_0 : ∀ a, (![0, 0] : Fin 2 → Nat) a + S512x256.size a ≤ S512x256.size a
  shapeCasts_S512x11008_S8x64x11008 : S512x11008.ShapeCasts S8x64x11008
  gather_S512x4096_S4096x1_S512x4096_0_1_n_n_1_1_5121_wf : GatherDims.WF S512x4096 S4096x1 S512x4096 [0] [1] [] [1] [] 1 ![512, 1]
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S11008x256.size a
  hwx0_0 : ∀ i : grid0.Coords, EltTy.bits .i32 = 32 ∨ (Rect.block (s := S11008x256) S256x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S16x2.size a
  hwx0_1 : ∀ i : grid0.Coords, EltTy.bits .f32 = 32 ∨ (Rect.block (s := S16x2) S16x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x11008.size a
  hwx0_3 : ∀ i : grid0.Coords, EltTy.bits .f32 = 32 ∨ (Rect.block (s := S512x11008) S512x256.size (cc0_transform_3 i) (hinb0_3 i)).WholeWords (EltTy.packing .f32)

variable [Facts₀]

def gather_S512x4096_S4096x1_S512x4096_0_1_n_n_1_1_5121 : GatherDims S512x4096 S4096x1 S512x4096 where
  offsetDims := [0]
  collapsedSliceDims := [1]
  operandBatchingDims := []
  startIndicesBatchingDims := []
  startIndexMap := [1]
  indexVectorDim := 1
  sliceSizes := ![512, 1]
  wf := gather_S512x4096_S4096x1_S512x4096_0_1_n_n_1_1_5121_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S11008x256 : Shape := ⟨2, ![11008, 256]⟩
abbrev S16x2 : Shape := ⟨2, ![16, 2]⟩
abbrev S8 : Shape := ⟨1, ![8]⟩
abbrev S_ : Shape := ⟨0, ![]⟩
abbrev S11008x256x1 : Shape := ⟨3, ![11008, 256, 1]⟩
abbrev S1x1x8 : Shape := ⟨3, ![1, 1, 8]⟩
abbrev S11008x256x8 : Shape := ⟨3, ![11008, 256, 8]⟩
abbrev S11008x2048 : Shape := ⟨2, ![11008, 2048]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S512x4096 : Shape := ⟨2, ![512, 4096]⟩
abbrev S4096x11008 : Shape := ⟨2, ![4096, 11008]⟩
abbrev S512x11008 : Shape := ⟨2, ![512, 11008]⟩
abbrev S8x64x11008 : Shape := ⟨3, ![8, 64, 11008]⟩

abbrev nBuf : Space → Nat
  | .hbm => 30
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S11008x256, .i32⟩
  | .hbm, ⟨2, _⟩ => ⟨S16x2, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S11008x256x1, .i32⟩
  | .hbm, ⟨8, _⟩ => ⟨S1x1x8, .i32⟩
  | .hbm, ⟨9, _⟩ => ⟨S11008x256x8, .i32⟩
  | .hbm, ⟨10, _⟩ => ⟨S11008x256x8, .i32⟩
  | .hbm, ⟨11, _⟩ => ⟨S11008x256x8, .i32⟩
  | .hbm, ⟨12, _⟩ => ⟨S_, .i32⟩
  | .hbm, ⟨13, _⟩ => ⟨S11008x256x8, .i32⟩
  | .hbm, ⟨14, _⟩ => ⟨S11008x256x8, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i1⟩
  | .hbm, ⟨19, _⟩ => ⟨S_, .i32⟩
  | .hbm, ⟨20, _⟩ => ⟨S11008x2048, .i32⟩
  | .hbm, ⟨21, _⟩ => ⟨S11008x2048, .i32⟩
  | .hbm, ⟨22, _⟩ => ⟨S11008x2048, .i32⟩
  | .hbm, ⟨23, _⟩ => ⟨S11008x2048x1, .i32⟩
  | .hbm, ⟨24, _⟩ => ⟨S11008x2048x2, .f32⟩
  | .hbm, ⟨25, _⟩ => ⟨S11008x4096, .f32⟩
  | .hbm, ⟨26, _⟩ => ⟨S512x4096, .f32⟩
  | .hbm, ⟨27, _⟩ => ⟨S4096x11008, .f32⟩
  | .hbm, ⟨28, _⟩ => ⟨S512x11008, .f32⟩
  | .hbm, ⟨29, _⟩ => ⟨S8x64x11008, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x256_S11008x256x1_0_1 : S11008x256.BroadcastsInDim S11008x256x1 (![0, 1] : Fin 2 → Fin S11008x256x1.rank)
  bcast_S8_S1x1x8_2 : S8.BroadcastsInDim S1x1x8 (![2] : Fin 1 → Fin S1x1x8.rank)
  bcast_S11008x256x1_S11008x256x8_0_1_2 : S11008x256x1.BroadcastsInDim S11008x256x8 (![0, 1, 2] : Fin 3 → Fin S11008x256x8.rank)
  bcast_S1x1x8_S11008x256x8_0_1_2 : S1x1x8.BroadcastsInDim S11008x256x8 (![0, 1, 2] : Fin 3 → Fin S11008x256x8.rank)
  bcast_S_S11008x256x8 : S_.BroadcastsInDim S11008x256x8 (![] : Fin 0 → Fin S11008x256x8.rank)
  shapeCasts_S11008x256x8_S11008x2048 : S11008x256x8.ShapeCasts S11008x2048
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  shapeCasts_S11008x2048x2_S11008x4096 : S11008x2048x2.ShapeCasts S11008x4096
  shapeCasts_S8x64x4096_S512x4096 : S8x64x4096.ShapeCasts S512x4096
  transposes_S11008x4096_S4096x11008_1_0 : S11008x4096.Transposes [1, 0] S4096x11008
  shapeCasts_S512x11008_S8x64x11008 : S512x11008.ShapeCasts S8x64x11008
  gather_S16x2_S11008x2048x1_S11008x2048x2_2_0_n_n_0_2_12_wf : GatherDims.WF S16x2 S11008x2048x1 S11008x2048x2 [2] [0] [] [0] [] 2 ![1, 2]
  dot_S512x4096_S4096x11008_S512x11008_1_0_0_1_n_n_wf : DotDims.WF S512x4096 S4096x11008 S512x11008 [1] [0] [0] [1] [] []

variable [Facts₀]

def gather_S16x2_S11008x2048x1_S11008x2048x2_2_0_n_n_0_2_12 : GatherDims S16x2 S11008x2048x1 S11008x2048x2 where
  offsetDims := [2]
  collapsedSliceDims := [0]
  operandBatchingDims := []
  startIndicesBatchingDims := []
  startIndexMap := [0]
  indexVectorDim := 2
  sliceSizes := ![1, 2]
  wf := gather_S16x2_S11008x2048x1_S11008x2048x2_2_0_n_n_0_2_12_wf
def dot_S512x4096_S4096x11008_S512x11008_1_0_0_1_n_n : DotDims S512x4096 S4096x11008 S512x11008 where
  lhsContracting := [1]
  rhsContracting := [0]
  lhsNonContracting := [0]
  rhsNonContracting := [1]
  lhsBatch := []
  rhsBatch := []
  wf := dot_S512x4096_S4096x11008_S512x11008_1_0_0_1_n_n_wf

class Facts : Prop extends Facts₀ where

variable [Facts]
-- ==== Proof.Spec.lean ====
/-
  What both programs compute, as one function of the three argument arrays.

  A row of `qweight` packs, in each 32-bit word, eight 4-bit codes: code `k` of word `q` is `(q >>ₛ 4k) &&& 15`
  (the mask makes the sign-extending shift harmless). A code selects a row of the 16 × 2 table `lut`, whose two
  entries are two consecutive input features: word `c` of a weight row, code `k`, entry `j` is feature
  `f = 16 c + 2 k + j`. The dequantised weight is `W[n, f] = lut[code, j]`, and the result is the product
  `out[a, b, n] = ∑ f, x[a, b, f] · W[n, f]` over the extended reals.
-/
import Idealize.ShloMosaic.Lib.ValueIdx
import Idealize.ShloMosaic.PureOps.Ideal

noncomputable section

open scoped BigOperators

namespace Cert.VQ

open Idealize.ShloMosaic Idealize.ShloMosaic.ValueIdx

/-- A 4-bit field of a packed 32-bit word: the word shifted right arithmetically by `s` bits, its low four bits kept. -/
def codeAt (q s : BitVec 32) : BitVec 32 := (q.sshiftRight' s) &&& 15#32

/-- A 4-bit field is below sixteen, whatever the word's sign. -/
theorem codeAt_lt (q s : BitVec 32) : (codeAt q s).toNat < 16 := by
  unfold codeAt
  rw [BitVec.toNat_and]
  exact Nat.lt_of_le_of_lt Nat.and_le_right (by decide)

/-- The table row a code word selects: the word read as a signed integer and clamped into the sixteen rows. -/
def lutRow (c : BitVec 32) : Fin 16 := ⟨min c.toInt.toNat 15, by omega⟩

/-- On a word below sixteen the clamp and the signed reading do nothing. -/
theorem lutRow_val (c : BitVec 32) (h : c.toNat < 16) : (lutRow c).val = c.toNat := by
  unfold lutRow
  have h2 : c.toInt = (c.toNat : Int) := BitVec.toInt_eq_toNat_of_lt (by omega)
  show min c.toInt.toNat 15 = c.toNat
  rw [h2, Int.toNat_natCast]
  omega

/-- One bit of a word as a one-bit condition: `(c &&& m) ≠ 0`. -/
def bitOf (c m : BitVec 32) : BitVec 1 := IntOp.cmpi .ne (IntOp.andi c m) 0#32

/-- A four-level binary selection tree over sixteen values: the lowest condition picks inside a pair, the next between
    pairs, and so on, so that conditions `b0 b1 b2 b3` pick value number `b0 + 2 b1 + 4 b2 + 8 b3`. -/
def mux16 {α : Type} (b0 b1 b2 b3 : BitVec 1) (l0 l1 l2 l3 l4 l5 l6 l7 l8 l9 l10 l11 l12 l13 l14 l15 : α) : α :=
  Scalar.select b3
    (Scalar.select b2
      (Scalar.select b1 (Scalar.select b0 l15 l14) (Scalar.select b0 l13 l12))
      (Scalar.select b1 (Scalar.select b0 l11 l10) (Scalar.select b0 l9 l8)))
    (Scalar.select b2
      (Scalar.select b1 (Scalar.select b0 l7 l6) (Scalar.select b0 l5 l4))
      (Scalar.select b1 (Scalar.select b0 l3 l2) (Scalar.select b0 l1 l0)))

/-- The dequantised weight `W[n, f]`: feature `f = 16 c + 2 k + j` of weight row `n` is entry `j` of the table row
    that code `k` of word `c` selects. -/
def weight (q : (⟨2, ![11008, 256]⟩ : Shape).Idx → BitVec 32) (lut : (⟨2, ![16, 2]⟩ : Shape).Idx → EReal)
    (n : Fin 11008) (f : Fin 4096) : EReal :=
  lut (ix2 (lutRow (codeAt (q (ix2 n (⟨f.val / 16, by omega⟩ : Fin 256))) (BitVec.ofNat 32 (4 * (f.val / 2 % 8)))))
    (⟨f.val % 2, by omega⟩ : Fin 2))

/-- One element of the result: row `(a, b)` of the input against weight row `n`. -/
def resultAt (x : (⟨3, ![8, 64, 4096]⟩ : Shape).Idx → EReal) (q : (⟨2, ![11008, 256]⟩ : Shape).Idx → BitVec 32)
    (lut : (⟨2, ![16, 2]⟩ : Shape).Idx → EReal) (a : Fin 8) (b : Fin 64) (n : Fin 11008) : EReal :=
  ∑ f : Fin 4096, x (ix3 a b f) * weight q lut n f

/-- The whole result array. -/
def result (x : (⟨3, ![8, 64, 4096]⟩ : Shape).Idx → EReal) (q : (⟨2, ![11008, 256]⟩ : Shape).Idx → BitVec 32)
    (lut : (⟨2, ![16, 2]⟩ : Shape).Idx → EReal) : (⟨3, ![8, 64, 11008]⟩ : Shape).Idx → EReal :=
  fun i => resultAt x q lut (i 0) (i 1) (i 2)

theorem result_apply (x : (⟨3, ![8, 64, 4096]⟩ : Shape).Idx → EReal) (q : (⟨2, ![11008, 256]⟩ : Shape).Idx → BitVec 32)
    (lut : (⟨2, ![16, 2]⟩ : Shape).Idx → EReal) (a : Fin 8) (b : Fin 64) (n : Fin 11008) :
    result x q lut (ix3 a b n) = resultAt x q lut a b n := rfl

end Cert.VQ

end
-- ==== Proof.Mux.lean ====
/-
  The selection tree read at a code, and the arithmetic shift below the word width.

  A code word `c` below sixteen has binary digits `b0 b1 b2 b3`, digit `i` being "`c &&& 2^i` is not zero". The
  four-level tree `mux16` on those four digits returns value number `b0 + 2 b1 + 4 b2 + 8 b3`, which is `c` itself.
  There are only sixteen such words, so each is evaluated.

  A shift amount below 32 is in range for a 32-bit word, so on every unit the arithmetic right shift is the plain
  sign-extending shift; masking it with fifteen gives the 4-bit field `codeAt`.
-/
import proofs.«420444_j6030134083830_2_alg».proof.Proof.Spec

namespace Cert.VQ

open Idealize.ShloMosaic Idealize.ShloMosaic.ValueIdx

/-- The tree on the four binary digits of a natural number below sixteen picks that number's entry. -/
private theorem mux16_ofNat {α : Type} (n : Nat) (hn : n < 16) (l : Fin 16 → α) :
    mux16 (bitOf (BitVec.ofNat 32 n) 1#32) (bitOf (BitVec.ofNat 32 n) 2#32) (bitOf (BitVec.ofNat 32 n) 4#32)
        (bitOf (BitVec.ofNat 32 n) 8#32)
        (l 0) (l 1) (l 2) (l 3) (l 4) (l 5) (l 6) (l 7) (l 8) (l 9) (l 10) (l 11) (l 12) (l 13) (l 14) (l 15)
      = l ⟨n, hn⟩ := by
  have hb : ∀ m : BitVec 32, bitOf (BitVec.ofNat 32 n) m = BitVec.ofBool ((BitVec.ofNat 32 n &&& m) != 0#32) := by
    intro m; rfl
  interval_cases n <;> simp only [hb] <;> rfl

/-- The selection tree driven by the four digits of a code word picks the entry the code names. -/
theorem mux16_code {α : Type} (c : BitVec 32) (hc : c.toNat < 16) (l : Fin 16 → α) :
    mux16 (bitOf c 1#32) (bitOf c 2#32) (bitOf c 4#32) (bitOf c 8#32)
      (l 0) (l 1) (l 2) (l 3) (l 4) (l 5) (l 6) (l 7) (l 8) (l 9) (l 10) (l 11) (l 12) (l 13) (l 14) (l 15) = l ⟨c.toNat, hc⟩ := by
  have h := mux16_ofNat c.toNat hc l
  rw [BitVec.ofNat_toNat, BitVec.setWidth_eq] at h
  exact h

/-- A shift amount below the width is in range: the vector unit's arithmetic right shift is the sign-extending shift. -/
theorem shrsi_vector_eq (q s : BitVec 32) (hs : s.toNat < 32) : IntOp.shrsi .vector q s = q.sshiftRight' s := by
  unfold IntOp.shrsi
  exact if_pos hs

/-- The same on the host. -/
theorem shrsi_host_eq (q s : BitVec 32) (hs : s.toNat < 32) : IntOp.shrsi .host q s = q.sshiftRight' s := by
  unfold IntOp.shrsi
  exact if_pos hs

/-- The vector unit's shift-then-mask is the 4-bit field. -/
theorem codeAt_vector (q s : BitVec 32) (hs : s.toNat < 32) : IntOp.andi (IntOp.shrsi .vector q s) 15#32 = codeAt q s := by
  rw [shrsi_vector_eq q s hs]
  rfl

/-- The host's shift-then-mask is the 4-bit field. -/
theorem codeAt_host (q s : BitVec 32) (hs : s.toNat < 32) : IntOp.andi (IntOp.shrsi .host q s) 15#32 = codeAt q s := by
  rw [shrsi_host_eq q s hs]
  rfl

end Cert.VQ
-- ==== Proof.Body.lean ====
/-
  The kernel body as eight repetitions of one step.

  For each of the eight 4-bit fields of the packed weight words (shift `s = 0, 4, …, 28`) the body builds two weight
  tiles — for every code of the 256 × 256 block of words, entry 0 and entry 1 of the table row the code selects, found by a
  four-level selection tree on the code's binary digits — multiplies two 512 × 256 column slices of the (column-permuted)
  input by them, contracting the word index, and adds both products to a running sum that starts at zero. The printed body
  is literally this term; read at one element it is the double sum below.
-/
import proofs.«420444_j6030134083830_2_alg».proof.Proof.Gen.KernelIdeal.Frame
import proofs.«420444_j6030134083830_2_alg».proof.Proof.Mux
import Idealize.ShloMosaic.Lib.ValueIdx
import Idealize.ShloMosaic.Lib.Pipeline.Value
import Idealize.ShloMosaic.PureOps.Ideal.Laws

set_option maxRecDepth 65536

noncomputable section

open scoped BigOperators

namespace Cert.VQ

open Idealize.ShloMosaic Idealize.ShloMosaic.ValueIdx Cert.KernelIdeal Cert.KernelIdeal.Gen

variable {F : FTy → Type} [FloatOps F]

/-- Entry `(r, j)` of the table as the body extracts it: a one-element slice, then its element. -/
def lutS (lut : Vec F S16x2 .f32) (r j : Nat) (h : S16x2.Slices ![r, j] S1x1) : F .f32 :=
  extractAt ![0, 0] (extractStridedSlice S1x1 ![r, j] lut h) (by decide)

/-- The 4-bit codes of a block of words at shift `s`. -/
def codeV (q : Vec F S256x256 .i32) (s : BitVec 32) : IVec S256x256 32 :=
  andi (shrsi q (broadcast S256x256 s)) (broadcast S256x256 15#32)

/-- One binary digit of every code: "code and mask is not zero". -/
def bitV (q : Vec F S256x256 .i32) (s m : BitVec 32) : IVec S256x256 1 :=
  cmpi .ne (andi (codeV q s) (broadcast S256x256 m)) (broadcast S256x256 0#32)

/-- A weight tile: for every word of the block, the one of sixteen scalars its code at shift `s` selects, through the
    four-level tree, in the product's operand format. -/
def tile (q : Vec F S256x256 .i32) (s : BitVec 32) (l0 l1 l2 l3 l4 l5 l6 l7 l8 l9 l10 l11 l12 l13 l14 l15 : F .f32) :
    FVec F S256x256 .bf16 :=
  truncf .bf16
    (select (bitV q s 8#32)
      (select (bitV q s 4#32)
        (select (bitV q s 2#32) (select (bitV q s 1#32) (broadcast S256x256 l15) (broadcast S256x256 l14))
          (select (bitV q s 1#32) (broadcast S256x256 l13) (broadcast S256x256 l12)))
        (select (bitV q s 2#32) (select (bitV q s 1#32) (broadcast S256x256 l11) (broadcast S256x256 l10))
          (select (bitV q s 1#32) (broadcast S256x256 l9) (broadcast S256x256 l8))))
      (select (bitV q s 4#32)
        (select (bitV q s 2#32) (select (bitV q s 1#32) (broadcast S256x256 l7) (broadcast S256x256 l6))
          (select (bitV q s 1#32) (broadcast S256x256 l5) (broadcast S256x256 l4)))
        (select (bitV q s 2#32) (select (bitV q s 1#32) (broadcast S256x256 l3) (broadcast S256x256 l2))
          (select (bitV q s 1#32) (broadcast S256x256 l1) (broadcast S256x256 l0)))))
    bitsLt_bf16_f32

/-- The tile of table column 0, and of column 1. -/
def tile0 (q : Vec F S256x256 .i32) (lut : Vec F S16x2 .f32) (s : BitVec 32) : FVec F S256x256 .bf16 :=
  tile q s (lutS lut 0 0 (by decide)) (lutS lut 1 0 (by decide)) (lutS lut 2 0 (by decide)) (lutS lut 3 0 (by decide)) (lutS lut 4 0 (by decide)) (lutS lut 5 0 (by decide)) (lutS lut 6 0 (by decide)) (lutS lut 7 0 (by decide)) (lutS lut 8 0 (by decide)) (lutS lut 9 0 (by decide)) (lutS lut 10 0 (by decide)) (lutS lut 11 0 (by decide)) (lutS lut 12 0 (by decide)) (lutS lut 13 0 (by decide)) (lutS lut 14 0 (by decide)) (lutS lut 15 0 (by decide))
def tile1 (q : Vec F S256x256 .i32) (lut : Vec F S16x2 .f32) (s : BitVec 32) : FVec F S256x256 .bf16 :=
  tile q s (lutS lut 0 1 (by decide)) (lutS lut 1 1 (by decide)) (lutS lut 2 1 (by decide)) (lutS lut 3 1 (by decide)) (lutS lut 4 1 (by decide)) (lutS lut 5 1 (by decide)) (lutS lut 6 1 (by decide)) (lutS lut 7 1 (by decide)) (lutS lut 8 1 (by decide)) (lutS lut 9 1 (by decide)) (lutS lut 10 1 (by decide)) (lutS lut 11 1 (by decide)) (lutS lut 12 1 (by decide)) (lutS lut 13 1 (by decide)) (lutS lut 14 1 (by decide)) (lutS lut 15 1 (by decide))

/-- A column slice of the input against a weight tile, contracting the word index, into a zero accumulator. -/
def prod (xs : Vec F S512x256 .bf16) (w : FVec F S256x256 .bf16) : FVec F S512x256 .f32 :=
  matmul dot_S512x256_S256x256_S512x256_1_1_0_0_n_n none (shapeCast S512x256 xs shapeCasts_S512x256_S512x256) w
    (constant S512x256 .f32 0x00000000#32)

/-- One step: the running sum plus the two products of shift `s`. -/
def step (acc : FVec F S512x256 .f32) (q : Vec F S256x256 .i32) (lut : Vec F S16x2 .f32) (s : BitVec 32)
    (xa xb : Vec F S512x256 .bf16) : FVec F S512x256 .f32 :=
  addf (addf acc (prod xa (tile0 q lut s))) (prod xb (tile1 q lut s))

/-- The whole body: eight steps from zero, shift `4k` reading the input's column slices at `512 k` and `512 k + 256`. -/
def body (q : Vec F S256x256 .i32) (lut : Vec F S16x2 .f32) (x : Vec F S512x4096 .bf16) : FVec F S512x256 .f32 :=
  step (step (step (step (step (step (step (step
    (broadcast S512x256 (Scalar.ofBits .f32 0x00000000#32))
    q lut 0#32 (View.ld x r0_2) (View.ld x r0_3))
    q lut 4#32 (View.ld x r0_4) (View.ld x r0_5))
    q lut 8#32 (View.ld x r0_6) (View.ld x r0_7))
    q lut 12#32 (View.ld x r0_8) (View.ld x r0_9))
    q lut 16#32 (View.ld x r0_10) (View.ld x r0_11))
    q lut 20#32 (View.ld x r0_12) (View.ld x r0_13))
    q lut 24#32 (View.ld x r0_14) (View.ld x r0_15))
    q lut 28#32 (View.ld x r0_16) (View.ld x r0_17)

set_option maxHeartbeats 4000000 in
/-- What the body stores is that term of the loaded blocks. -/
theorem out0_3_eq_body (x0 : Vec F S256x256 .i32) (x1 : Vec F S16x2 .f32) (x2 : Vec F S512x4096 .bf16) :
    out0_3 x0 x1 x2 = View.canon [⟨r0_18, body (View.ld x0 r0_0) (View.ld x1 r0_1) x2⟩] := rfl

end Cert.VQ

end
-- ==== Proof.BodyAt.lean ====
/-
  The kernel body read at one element.

  A weight tile at word `(n, c)` is the table entry the word's code selects (the selection tree picks entry number
  "code", and the code is below sixteen, so the clamp of the table lookup does nothing); a product into zero at `(b, n)`
  is the sum over the word index `c` of input times tile; so the body's element `(b, n)` is the sum over the eight
  fields `k` of two such sums, over the input's columns `512 k + c` and `512 k + 256 + c`.
-/
import proofs.«420444_j6030134083830_2_alg».proof.Proof.Body

set_option maxRecDepth 65536

noncomputable section

open scoped BigOperators

namespace Cert.VQ

open Idealize.ShloMosaic Idealize.ShloMosaic.ValueIdx Cert.KernelIdeal Cert.KernelIdeal.Gen

/-- The extracted table entry is the table at `(r, j)`. -/
theorem lutS_apply (lut : Vec Ideal S16x2 .f32) (r j : Nat) (hr : r < 16) (hj : j < 2) (h : S16x2.Slices ![r, j] S1x1) :
    lutS lut r j h = lut (ix2 (⟨r, hr⟩ : Fin 16) (⟨j, hj⟩ : Fin 2)) := by
  unfold lutS extractAt extractStridedSlice
  refine congrArg lut (funext fun a => Fin.ext ?_)
  match a with
  | ⟨0, _⟩ => rfl
  | ⟨1, _⟩ => rfl

/-- A tile at a word: the scalar the word's code names. -/
theorem tile_apply (q : Vec Ideal S256x256 .i32) (s : BitVec 32) (hs : s.toNat < 32) (l : Fin 16 → Ideal .f32) (n c : Fin 256) :
    (tile (F := Ideal) q s (l 0) (l 1) (l 2) (l 3) (l 4) (l 5) (l 6) (l 7) (l 8) (l 9) (l 10) (l 11) (l 12) (l 13) (l 14) (l 15)) (ix2 n c)
      = l ⟨(codeAt (q (ix2 n c)) s).toNat, codeAt_lt _ _⟩ := by
  refine Eq.trans ?_ (mux16_code (codeAt (q (ix2 n c)) s) (codeAt_lt _ _) l)
  rw [← codeAt_vector (q (ix2 n c)) s hs]
  rfl

/-- The tile of table column 0 at a word. -/
theorem tile0_apply (q : Vec Ideal S256x256 .i32) (lut : Vec Ideal S16x2 .f32) (s : BitVec 32) (hs : s.toNat < 32) (n c : Fin 256) :
    tile0 (F := Ideal) q lut s (ix2 n c) = lut (ix2 (lutRow (codeAt (q (ix2 n c)) s)) (0 : Fin 2)) := by
  unfold tile0
  rw [lutS_apply lut 0 0 (by decide) (by decide) (by decide),
    lutS_apply lut 1 0 (by decide) (by decide) (by decide),
    lutS_apply lut 2 0 (by decide) (by decide) (by decide),
    lutS_apply lut 3 0 (by decide) (by decide) (by decide),
    lutS_apply lut 4 0 (by decide) (by decide) (by decide),
    lutS_apply lut 5 0 (by decide) (by decide) (by decide),
    lutS_apply lut 6 0 (by decide) (by decide) (by decide),
    lutS_apply lut 7 0 (by decide) (by decide) (by decide),
    lutS_apply lut 8 0 (by decide) (by decide) (by decide),
    lutS_apply lut 9 0 (by decide) (by decide) (by decide),
    lutS_apply lut 10 0 (by decide) (by decide) (by decide),
    lutS_apply lut 11 0 (by decide) (by decide) (by decide),
    lutS_apply lut 12 0 (by decide) (by decide) (by decide),
    lutS_apply lut 13 0 (by decide) (by decide) (by decide),
    lutS_apply lut 14 0 (by decide) (by decide) (by decide),
    lutS_apply lut 15 0 (by decide) (by decide) (by decide)]
  refine (tile_apply q s hs (fun r : Fin 16 => lut (ix2 r (0 : Fin 2))) n c).trans ?_
  exact congrArg (fun r : Fin 16 => lut (ix2 r (0 : Fin 2))) (Fin.ext (lutRow_val _ (codeAt_lt _ _)).symm)

/-- The tile of table column 1 at a word. -/
theorem tile1_apply (q : Vec Ideal S256x256 .i32) (lut : Vec Ideal S16x2 .f32) (s : BitVec 32) (hs : s.toNat < 32) (n c : Fin 256) :
    tile1 (F := Ideal) q lut s (ix2 n c) = lut (ix2 (lutRow (codeAt (q (ix2 n c)) s)) (1 : Fin 2)) := by
  unfold tile1
  rw [lutS_apply lut 0 1 (by decide) (by decide) (by decide),
    lutS_apply lut 1 1 (by decide) (by decide) (by decide),
    lutS_apply lut 2 1 (by decide) (by decide) (by decide),
    lutS_apply lut 3 1 (by decide) (by decide) (by decide),
    lutS_apply lut 4 1 (by decide) (by decide) (by decide),
    lutS_apply lut 5 1 (by decide) (by decide) (by decide),
    lutS_apply lut 6 1 (by decide) (by decide) (by decide),
    lutS_apply lut 7 1 (by decide) (by decide) (by decide),
    lutS_apply lut 8 1 (by decide) (by decide) (by decide),
    lutS_apply lut 9 1 (by decide) (by decide) (by decide),
    lutS_apply lut 10 1 (by decide) (by decide) (by decide),
    lutS_apply lut 11 1 (by decide) (by decide) (by decide),
    lutS_apply lut 12 1 (by decide) (by decide) (by decide),
    lutS_apply lut 13 1 (by decide) (by decide) (by decide),
    lutS_apply lut 14 1 (by decide) (by decide) (by decide),
    lutS_apply lut 15 1 (by decide) (by decide) (by decide)]
  refine (tile_apply q s hs (fun r : Fin 16 => lut (ix2 r (1 : Fin 2))) n c).trans ?_
  exact congrArg (fun r : Fin 16 => lut (ix2 r (1 : Fin 2))) (Fin.ext (lutRow_val _ (codeAt_lt _ _)).symm)

/-! ### The product's operand indices, axis by axis -/

theorem lhs_prod_0 (i : S512x256.Idx) (k : dot_S512x256_S256x256_S512x256_1_1_0_0_n_n.contr.Idx) : (dot_S512x256_S256x256_S512x256_1_1_0_0_n_n.lhsIdx i k 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem lhs_prod_1 (i : S512x256.Idx) (k : dot_S512x256_S256x256_S512x256_1_1_0_0_n_n.contr.Idx) : (dot_S512x256_S256x256_S512x256_1_1_0_0_n_n.lhsIdx i k 1).val = (k ⟨0, by decide⟩).val :=
  dot_S512x256_S256x256_S512x256_1_1_0_0_n_n.lhsIdx_val_of_single rfl i k
theorem rhs_prod_0 (i : S512x256.Idx) (k : dot_S512x256_S256x256_S512x256_1_1_0_0_n_n.contr.Idx) : (dot_S512x256_S256x256_S512x256_1_1_0_0_n_n.rhsIdx i k 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem rhs_prod_1 (i : S512x256.Idx) (k : dot_S512x256_S256x256_S512x256_1_1_0_0_n_n.contr.Idx) : (dot_S512x256_S256x256_S512x256_1_1_0_0_n_n.rhsIdx i k 1).val = (k ⟨0, by decide⟩).val :=
  dot_S512x256_S256x256_S512x256_1_1_0_0_n_n.rhsIdx_val_of_single rfl i k

/-- A product into zero at `(b, n)`: the sum over the word index of input row `b` times tile row `n`. -/
theorem prod_apply (xs : Vec Ideal S512x256 .bf16) (w : FVec Ideal S256x256 .bf16) (b : Fin 512) (n : Fin 256) :
    prod (F := Ideal) xs w (ix2 b n) = ∑ c : Fin 256, xs (ix2 b c) * w (ix2 n c) := by
  unfold prod
  rw [shapeCast_self]
  refine (Ideal.matmul_constant_zero_apply dot_S512x256_S256x256_S512x256_1_1_0_0_n_n none xs w (ix2 b n)).trans ?_
  rw [← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 b n) ((contrEquiv1 dot_S512x256_S256x256_S512x256_1_1_0_0_n_n 256 rfl rfl).symm k) = ix2 b k := funext fun a => Fin.ext (by
    match a with
    | ⟨0, _⟩ => exact lhs_prod_0 _ _
    | ⟨1, _⟩ => exact (lhs_prod_1 _ _).trans hk)
  have er : dot_S512x256_S256x256_S512x256_1_1_0_0_n_n.rhsIdx (ix2 b n) ((contrEquiv1 dot_S512x256_S256x256_S512x256_1_1_0_0_n_n 256 rfl rfl).symm k) = ix2 n k := funext fun a => Fin.ext (by
    match a with
    | ⟨0, _⟩ => exact rhs_prod_0 _ _
    | ⟨1, _⟩ => exact (rhs_prod_1 _ _).trans hk)
  rw [el, er]

/-- A 512 × 256 column slice of the input at column offset `o`, read at `(b, c)`. -/
theorem ld_cols (x : Vec Ideal S512x4096 .bf16) (o : Nat) (inb : ∀ a, (![0, o] : Fin 2 → Nat) a + S512x256.size a ≤ S512x4096.size a)
    (b : Fin 512) (c : Fin 256) (h : o + c.val < 4096) :
    View.ld x (Rect.unit (s := S512x4096) ![0, o] S512x256.size inb) (ix2 b c) = x (ix2 b (⟨o + c.val, h⟩ : Fin 4096)) := by
  show x ((Rect.unit (s := S512x4096) ![0, o] S512x256.size inb).emb (ix2 b c)) = _
  refine congrArg x (funext fun a => Fin.ext ?_)
  match a with
  | ⟨0, _⟩ => show 0 + 1 * b.val = b.val; omega
  | ⟨1, _⟩ => show o + 1 * c.val = o + c.val; omega

/-- The two sums one step adds, for shift `s` and the input's columns from `o`. -/
def stepSum (q : Vec Ideal S256x256 .i32) (lut : Vec Ideal S16x2 .f32) (x : Vec Ideal S512x4096 .bf16) (s : BitVec 32) (o : Nat)
    (ho : o + 512 ≤ 4096) (b : Fin 512) (n : Fin 256) : EReal :=
  (∑ c : Fin 256, x (ix2 b (⟨o + c.val, by omega⟩ : Fin 4096)) * lut (ix2 (lutRow (codeAt (q (ix2 n c)) s)) (0 : Fin 2)))
    + ∑ c : Fin 256, x (ix2 b (⟨o + 256 + c.val, by omega⟩ : Fin 4096)) * lut (ix2 (lutRow (codeAt (q (ix2 n c)) s)) (1 : Fin 2))

/-- One step at `(b, n)`. -/
theorem step_apply (acc : FVec Ideal S512x256 .f32) (q : Vec Ideal S256x256 .i32) (lut : Vec Ideal S16x2 .f32)
    (x : Vec Ideal S512x4096 .bf16) (s : BitVec 32) (hs : s.toNat < 32) (o : Nat) (ho : o + 512 ≤ 4096)
    (inbA : ∀ a, (![0, o] : Fin 2 → Nat) a + S512x256.size a ≤ S512x4096.size a)
    (inbB : ∀ a, (![0, o + 256] : Fin 2 → Nat) a + S512x256.size a ≤ S512x4096.size a) (b : Fin 512) (n : Fin 256) :
    step (F := Ideal) acc q lut s (View.ld x (Rect.unit (s := S512x4096) ![0, o] S512x256.size inbA))
        (View.ld x (Rect.unit (s := S512x4096) ![0, o + 256] S512x256.size inbB)) (ix2 b n)
      = acc (ix2 b n) + stepSum q lut x s o ho b n := by
  unfold step stepSum
  rw [addf_apply, addf_apply, prod_apply, prod_apply, add_assoc]
  refine congrArg (acc (ix2 b n) + ·) (congrArg₂ (· + ·) ?_ ?_)
  · refine Finset.sum_congr rfl fun c _ => ?_
    rw [ld_cols x o inbA b c (by omega), tile0_apply q lut s hs n c]
  · refine Finset.sum_congr rfl fun c _ => ?_
    rw [ld_cols x (o + 256) inbB b c (by omega), tile1_apply q lut s hs n c]

/-- The body at `(b, n)`: the eight steps' sums. -/
theorem body_apply (q : Vec Ideal S256x256 .i32) (lut : Vec Ideal S16x2 .f32) (x : Vec Ideal S512x4096 .bf16) (b : Fin 512) (n : Fin 256) :
    body (F := Ideal) q lut x (ix2 b n)
      = stepSum q lut x 0#32 0 (by omega) b n + stepSum q lut x 4#32 512 (by omega) b n + stepSum q lut x 8#32 1024 (by omega) b n
        + stepSum q lut x 12#32 1536 (by omega) b n + stepSum q lut x 16#32 2048 (by omega) b n + stepSum q lut x 20#32 2560 (by omega) b n
        + stepSum q lut x 24#32 3072 (by omega) b n + stepSum q lut x 28#32 3584 (by omega) b n := by
  unfold body
  rw [step_apply _ q lut x 28#32 (by decide) 3584 (by omega) _ _ b n, step_apply _ q lut x 24#32 (by decide) 3072 (by omega) _ _ b n,
    step_apply _ q lut x 20#32 (by decide) 2560 (by omega) _ _ b n, step_apply _ q lut x 16#32 (by decide) 2048 (by omega) _ _ b n,
    step_apply _ q lut x 12#32 (by decide) 1536 (by omega) _ _ b n, step_apply _ q lut x 8#32 (by decide) 1024 (by omega) _ _ b n,
    step_apply _ q lut x 4#32 (by decide) 512 (by omega) _ _ b n, step_apply _ q lut x 0#32 (by decide) 0 (by omega) _ _ b n]
  rw [broadcast_apply]
  show Ideal.ofBits .f32 0x00000000#32 + _ + _ + _ + _ + _ + _ + _ + _ = _
  rw [Ideal.ofBits_zero_f32, zero_add]

end Cert.VQ

end
-- ==== Proof.KernelBlocks.lean ====
/-
  From the body's element to the array the region leaves.

  Point `t` of the 43-point grid stages rows `256 t … 256 t + 255` of the packed weights, the whole table and the whole
  (column-permuted) input, and writes back columns `256 t … 256 t + 255` of the 512 × 11008 result. The blocks written
  back tile the result, so after the region the result array is one function of the arrays the region found: at
  `(b, n)` the eight double sums of the body, with the weight words of row `n`.
-/
import proofs.«420444_j6030134083830_2_alg».proof.Proof.BodyAt

set_option maxRecDepth 65536

noncomputable section

open scoped BigOperators

namespace Cert.VQ

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: window 0 (weight words) moves down its rows with the point, windows 1 and 2
    (table, input) stay, window 3 (result) moves along its columns with the point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem point_lt (t : Fin cfg0.N) : t.val < 43 := by
  have h := t.isLt
  have e : cfg0.N = 43 := N_0
  omega

/-- Point `t`'s block of weight words: rows from `256 t`. -/
theorem qblk_apply (c : Dev nD) (t : Fin cfg0.N) (n c' : Fin 256) (h : 256 * t.val + n.val < 11008) :
    (iblk m c 0 t : S256x256.Idx → BitVec 32) (ix2 n c')
      = (m ((c : Thread nD τ).loc main_arg1) : S11008x256.Idx → BitVec 32) (ix2 (⟨256 * t.val + n.val, h⟩ : Fin 11008) c') := by
  obtain ⟨e0, e1, -⟩ := idx_facts t
  show V m c main_arg1 (((cfg0.win 0).blk t).view.emb (ix2 n c')) = _
  rw [V_main_arg1]
  refine congrArg _ (funext fun a => Fin.ext ?_)
  match a with
  | ⟨0, _⟩ => show win0_0.index t (0 : Fin 2) * 256 + 1 * n.val = 256 * t.val + n.val; omega
  | ⟨1, _⟩ => show win0_0.index t (1 : Fin 2) * 256 + 1 * c'.val = c'.val; omega

/-- Every point's block of the table is the table. -/
theorem lutblk_apply (c : Dev nD) (t : Fin cfg0.N) (r : Fin 16) (j : Fin 2) :
    (iblk m c 1 t : S16x2.Idx → EReal) (ix2 r j) = (m ((c : Thread nD τ).loc main_arg2) : S16x2.Idx → EReal) (ix2 r j) := by
  obtain ⟨-, -, e0, e1, -⟩ := idx_facts t
  show V m c main_arg2 (((cfg0.win 1).blk t).view.emb (ix2 r j)) = _
  rw [V_main_arg2]
  refine congrArg _ (funext fun a => Fin.ext ?_)
  match a with
  | ⟨0, _⟩ => show win0_1.index t (0 : Fin 2) * 16 + 1 * r.val = r.val; omega
  | ⟨1, _⟩ => show win0_1.index t (1 : Fin 2) * 2 + 1 * j.val = j.val; omega

/-- Every point's block of the input is the input as the region finds it. -/
theorem xblk_apply (c : Dev nD) (t : Fin cfg0.N) (b : Fin 512) (a : Fin 4096) :
    (iblk m c 2 t : S512x4096.Idx → EReal) (ix2 b a) = (V m c main_v6 : S512x4096.Idx → EReal) (ix2 b a) := by
  obtain ⟨-, -, -, -, e0, e1, -⟩ := idx_facts t
  show V m c main_v6 (((cfg0.win 2).blk t).view.emb (ix2 b a)) = _
  refine congrArg _ (funext fun d => Fin.ext ?_)
  match d with
  | ⟨0, _⟩ => show win0_2.index t (0 : Fin 2) * 512 + 1 * b.val = b.val; omega
  | ⟨1, _⟩ => show win0_2.index t (1 : Fin 2) * 4096 + 1 * a.val = a.val; omega

/-- The two sums of one field, over whole arrays: input `xp` (column-permuted), weight words `q`, table `lut`. -/
def fieldSum (xp : S512x4096.Idx → EReal) (q : S11008x256.Idx → BitVec 32) (lut : S16x2.Idx → EReal) (s : BitVec 32) (o : Nat)
    (ho : o + 512 ≤ 4096) (b : Fin 512) (n : Fin 11008) : EReal :=
  (∑ c : Fin 256, xp (ix2 b (⟨o + c.val, by omega⟩ : Fin 4096)) * lut (ix2 (lutRow (codeAt (q (ix2 n c)) s)) (0 : Fin 2)))
    + ∑ c : Fin 256, xp (ix2 b (⟨o + 256 + c.val, by omega⟩ : Fin 4096)) * lut (ix2 (lutRow (codeAt (q (ix2 n c)) s)) (1 : Fin 2))

/-- One element of the region's result: the eight fields' sums. -/
def regionAt (xp : S512x4096.Idx → EReal) (q : S11008x256.Idx → BitVec 32) (lut : S16x2.Idx → EReal) (b : Fin 512) (n : Fin 11008) : EReal :=
  fieldSum xp q lut 0#32 0 (by omega) b n + fieldSum xp q lut 4#32 512 (by omega) b n + fieldSum xp q lut 8#32 1024 (by omega) b n
    + fieldSum xp q lut 12#32 1536 (by omega) b n + fieldSum xp q lut 16#32 2048 (by omega) b n + fieldSum xp q lut 20#32 2560 (by omega) b n
    + fieldSum xp q lut 24#32 3072 (by omega) b n + fieldSum xp q lut 28#32 3584 (by omega) b n

/-- The region's result array. -/
def regionOut (xp : S512x4096.Idx → EReal) (q : S11008x256.Idx → BitVec 32) (lut : S16x2.Idx → EReal) : S512x11008.Idx → EReal :=
  fun i => regionAt xp q lut ⟨(i 0).val, idx2_lt0 i⟩ ⟨(i 1).val, idx2_lt1 i⟩

/-- A field's sums over point `t`'s blocks are the sums over the arrays, at weight row `256 t + n`. -/
theorem stepSum_blk (c : Dev nD) (t : Fin cfg0.N) (s : BitVec 32) (o : Nat) (ho : o + 512 ≤ 4096) (b : Fin 512) (n : Fin 256)
    (h : 256 * t.val + n.val < 11008) :
    stepSum (iblk m c 0 t) (iblk m c 1 t) (iblk m c 2 t) s o ho b n
      = fieldSum (V m c main_v6) (m ((c : Thread nD τ).loc main_arg1)) (m ((c : Thread nD τ).loc main_arg2)) s o ho b
          (⟨256 * t.val + n.val, h⟩ : Fin 11008) := by
  unfold stepSum fieldSum
  refine congrArg₂ (· + ·) ?_ ?_
  · refine Finset.sum_congr rfl fun c' _ => ?_
    rw [qblk_apply m c t n c' h, lutblk_apply m c t, xblk_apply m c t]
  · refine Finset.sum_congr rfl fun c' _ => ?_
    rw [qblk_apply m c t n c' h, lutblk_apply m c t, xblk_apply m c t]

/-- WHAT POINT `t` WRITES BACK is block `t` of `regionOut` of the arrays as the region finds them. -/
theorem flushed_eq (c : Dev nD) (t : Fin cfg0.N) :
    (dats m 0 c).flushed 3 t = ((cfg0.win 3).blk t).view.read (Elt Ideal)
      (regionOut (V m c main_v6) (m ((c : Thread nD τ).loc main_arg1)) (m ((c : Thread nD τ).loc main_arg2))) := by
  show (cfg0.win 3).cut (grid0.coords t) ((dats m 0 c).after 3 t) = _
  rw [after0_3, out0_3_eq_body, View.canon_unit_zero hz]
  simp only [View.ld_unit_zero (S := S256x256) hz, View.ld_unit_zero (S := S16x2) hz]
  obtain ⟨-, -, -, -, -, -, e0, e1⟩ := idx_facts t
  have ht := point_lt t
  funext j
  obtain ⟨b, n, rfl⟩ : ∃ (b : Fin 512) (n : Fin 256), j = ix2 b n := ⟨j 0, j 1, eq_ix2 j⟩
  show body (iblk m c 0 t) (iblk m c 1 t) (iblk m c 2 t) (ix2 b n)
    = regionOut (V m c main_v6) (m ((c : Thread nD τ).loc main_arg1)) (m ((c : Thread nD τ).loc main_arg2))
        (((cfg0.win 3).blk t).view.emb (ix2 b n))
  have hn : 256 * t.val + n.val < 11008 := by have := n.isLt; omega
  have hb : (⟨((((cfg0.win 3).blk t).view.emb (ix2 b n)) 0).val, idx2_lt0 _⟩ : Fin 512) = b := Fin.ext (by
    show win0_3.index t (0 : Fin 2) * 512 + 1 * b.val = b.val; omega)
  have hnn : (⟨((((cfg0.win 3).blk t).view.emb (ix2 b n)) 1).val, idx2_lt1 _⟩ : Fin 11008) = ⟨256 * t.val + n.val, hn⟩ := Fin.ext (by
    show win0_3.index t (1 : Fin 2) * 256 + 1 * n.val = 256 * t.val + n.val; omega)
  rw [body_apply]
  unfold regionOut regionAt
  rw [hb, hnn]
  simp only [stepSum_blk m c t _ _ _ b n hn]

end Cert.VQ

end
-- ==== Proof.SumFeatures.lean ====
/-
  A sum over the 4096 features, regrouped by where a feature sits in the packed weights.

  Feature `f` lies in word `c = f / 16`, at code `k = f / 2 % 8` of that word, as entry `j = f % 2` of the code's
  table row: `f = 16 c + 2 k + j`, and `(c, k, j)` ranges over `256 × 8 × 2` exactly once. So a sum over all features is
  the sum over `k` of the two sums over `c`, one for each entry `j`. Only commutativity and associativity of the
  addition are used.
-/
import Idealize.ShloMosaic.PureOps.Ideal
import Mathlib.Algebra.BigOperators.Fin
import Mathlib.Logic.Equiv.Fin.Basic

open scoped BigOperators

namespace Cert.VQ

/-- The position `(c, (k, j))` as a feature number: `16 c + (2 k + j)`. -/
private def featEquiv : Fin 256 × (Fin 8 × Fin 2) ≃ Fin 4096 :=
  (Equiv.prodCongr (Equiv.refl (Fin 256)) (finProdFinEquiv : Fin 8 × Fin 2 ≃ Fin 16)).trans
    (finProdFinEquiv : Fin 256 × Fin 16 ≃ Fin 4096)

private theorem featEquiv_val (c : Fin 256) (k : Fin 8) (j : Fin 2) :
    (featEquiv (c, (k, j))).val = 16 * c.val + 2 * k.val + j.val := by
  simp [featEquiv, finProdFinEquiv]
  omega

theorem sum_features {M : Type*} [AddCommMonoid M] (g : Fin 4096 → M) :
    ∑ f : Fin 4096, g f
      = ∑ k : Fin 8, ((∑ c : Fin 256, g ⟨16 * c.val + 2 * k.val, by omega⟩)
                    + ∑ c : Fin 256, g ⟨16 * c.val + 2 * k.val + 1, by omega⟩) := by
  rw [(Equiv.sum_comp featEquiv g).symm, Fintype.sum_prod_type, Finset.sum_comm]
  simp only [Fintype.sum_prod_type]
  refine Finset.sum_congr rfl fun k _ => ?_
  rw [Fin.sum_univ_two]
  congr 1 <;> refine Finset.sum_congr rfl fun c _ => ?_ <;> congr 1 <;> apply Fin.ext <;>
    rw [featEquiv_val] <;> simp

end Cert.VQ
-- ==== Proof.RegionArray.lean ====
/-
  The result array after the region, and why its element is the specification's sum.

  The 43 blocks written back are the column ranges `256 t … 256 t + 255` of the 512 × 11008 result: every index lies in
  the block of point `n / 256`, so the array ends holding `regionOut` everywhere. If column `512 k + 256 j + c` of the
  permuted input is feature `16 c + 2 k + j` of the input row, the eight fields' double sums are the one sum over all
  4096 features regrouped by (field, table entry, word): the specification's element.
-/
import proofs.«420444_j6030134083830_2_alg».proof.Proof.KernelBlocks
import proofs.«420444_j6030134083830_2_alg».proof.Proof.SumFeatures

set_option maxRecDepth 65536

noncomputable section

open scoped BigOperators

namespace Cert.VQ

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- An index of the result is in point `t`'s block iff each coordinate is in the block's range on its axis. -/
theorem mem_blk (t : Fin cfg0.N) (i : S512x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v7).slice (win0_3.rect t)).set ↔ _
  rw [View.set_slice_whole, Rect.mem_set_unit]
  exact Iff.rfl

/-- Column `n` of the result is written back by point `n / 256`. -/
theorem point_of_col : ∀ p : Fin 43, ∃ t : Fin cfg0.N, t.val = p.val :=
  (by decide +kernel : ∀ p : Fin 43, ∃ t : Fin grid0.N, t.val = p.val)

/-- The blocks written back cover the result. -/
theorem cover (i : S512x11008.Idx) : ∃ t : Fin cfg0.N, (cfg0.win 3).flush t = true ∧ i ∈ ((cfg0.win 3).blk t).view.set := by
  have hi0 : (i 0).val < 512 := idx2_lt0 i
  have hi1 : (i 1).val < 11008 := idx2_lt1 i
  obtain ⟨t, ht⟩ := point_of_col ⟨(i 1).val / 256, by omega⟩
  have ht' : t.val = (i 1).val / 256 := ht
  obtain ⟨-, -, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE RESULT ARRAY after the region. -/
theorem final (c : Dev nD) : (dats m 0 c).arrAt 3 cfg0.N
    = regionOut (V m c main_v6) (m ((c : Thread nD τ).loc main_arg1)) (m ((c : Thread nD τ).loc main_arg2)) :=
  (dats m 0 c).arrAt_eq_of_cover 3 _ (fun t _ => flushed_eq m c t) cover

/-! ### The eight fields' sums are the sum over all features -/

/-- One field's two sums, when the permuted input's columns are the input's features: the features `16 c + 2 k` and
    `16 c + 2 k + 1` of the specification's sum. -/
theorem fieldSum_eq (xp : S512x4096.Idx → EReal) (x : (⟨3, ![8, 64, 4096]⟩ : Shape).Idx → EReal) (q : S11008x256.Idx → BitVec 32)
    (lut : S16x2.Idx → EReal) (b : Fin 512) (n : Fin 11008)
    (h0 : ∀ (k : Fin 8) (c : Fin 256), xp (ix2 b (⟨512 * k.val + c.val, by omega⟩ : Fin 4096))
      = x (ix3 (⟨b.val / 64, by omega⟩ : Fin 8) (⟨b.val % 64, by omega⟩ : Fin 64) (⟨16 * c.val + 2 * k.val, by omega⟩ : Fin 4096)))
    (h1 : ∀ (k : Fin 8) (c : Fin 256), xp (ix2 b (⟨512 * k.val + 256 + c.val, by omega⟩ : Fin 4096))
      = x (ix3 (⟨b.val / 64, by omega⟩ : Fin 8) (⟨b.val % 64, by omega⟩ : Fin 64) (⟨16 * c.val + 2 * k.val + 1, by omega⟩ : Fin 4096)))
    (k : Fin 8) :
    fieldSum xp q lut (BitVec.ofNat 32 (4 * k.val)) (512 * k.val) (by omega) b n
      = (∑ c : Fin 256, x (ix3 (⟨b.val / 64, by omega⟩ : Fin 8) (⟨b.val % 64, by omega⟩ : Fin 64) (⟨16 * c.val + 2 * k.val, by omega⟩ : Fin 4096))
            * weight q lut n (⟨16 * c.val + 2 * k.val, by omega⟩ : Fin 4096))
        + ∑ c : Fin 256, x (ix3 (⟨b.val / 64, by omega⟩ : Fin 8) (⟨b.val % 64, by omega⟩ : Fin 64) (⟨16 * c.val + 2 * k.val + 1, by omega⟩ : Fin 4096))
            * weight q lut n (⟨16 * c.val + 2 * k.val + 1, by omega⟩ : Fin 4096) := by
  unfold fieldSum
  refine congrArg₂ (· + ·) ?_ ?_
  · refine Finset.sum_congr rfl fun c _ => ?_
    rw [h0 k c]
    refine congrArg (_ * ·) ?_
    unfold weight
    have e1 : (⟨(16 * c.val + 2 * k.val) / 16, by omega⟩ : Fin 256) = c := Fin.ext (by show (16 * c.val + 2 * k.val) / 16 = c.val; omega)
    have e2 : (16 * c.val + 2 * k.val) / 2 % 8 = k.val := by omega
    have e3 : (⟨(16 * c.val + 2 * k.val) % 2, by omega⟩ : Fin 2) = (0 : Fin 2) := Fin.ext (by show (16 * c.val + 2 * k.val) % 2 = 0; omega)
    show _ = lut (ix2 (lutRow (codeAt (q (ix2 n (⟨(16 * c.val + 2 * k.val) / 16, _⟩ : Fin 256))) (BitVec.ofNat 32 (4 * ((16 * c.val + 2 * k.val) / 2 % 8)))))
      (⟨(16 * c.val + 2 * k.val) % 2, _⟩ : Fin 2))
    rw [e1, e2, e3]
  · refine Finset.sum_congr rfl fun c _ => ?_
    rw [h1 k c]
    refine congrArg (_ * ·) ?_
    unfold weight
    have e1 : (⟨(16 * c.val + 2 * k.val + 1) / 16, by omega⟩ : Fin 256) = c := Fin.ext (by show (16 * c.val + 2 * k.val + 1) / 16 = c.val; omega)
    have e2 : (16 * c.val + 2 * k.val + 1) / 2 % 8 = k.val := by omega
    have e3 : (⟨(16 * c.val + 2 * k.val + 1) % 2, by omega⟩ : Fin 2) = (1 : Fin 2) := Fin.ext (by show (16 * c.val + 2 * k.val + 1) % 2 = 1; omega)
    show _ = lut (ix2 (lutRow (codeAt (q (ix2 n (⟨(16 * c.val + 2 * k.val + 1) / 16, _⟩ : Fin 256))) (BitVec.ofNat 32 (4 * ((16 * c.val + 2 * k.val + 1) / 2 % 8)))))
      (⟨(16 * c.val + 2 * k.val + 1) % 2, _⟩ : Fin 2))
    rw [e1, e2, e3]

/-- The region's element is the specification's, when the permuted input's columns are the input's features. -/
theorem regionAt_eq (xp : S512x4096.Idx → EReal) (x : (⟨3, ![8, 64, 4096]⟩ : Shape).Idx → EReal) (q : S11008x256.Idx → BitVec 32)
    (lut : S16x2.Idx → EReal) (b : Fin 512) (n : Fin 11008)
    (h0 : ∀ (k : Fin 8) (c : Fin 256), xp (ix2 b (⟨512 * k.val + c.val, by omega⟩ : Fin 4096))
      = x (ix3 (⟨b.val / 64, by omega⟩ : Fin 8) (⟨b.val % 64, by omega⟩ : Fin 64) (⟨16 * c.val + 2 * k.val, by omega⟩ : Fin 4096)))
    (h1 : ∀ (k : Fin 8) (c : Fin 256), xp (ix2 b (⟨512 * k.val + 256 + c.val, by omega⟩ : Fin 4096))
      = x (ix3 (⟨b.val / 64, by omega⟩ : Fin 8) (⟨b.val % 64, by omega⟩ : Fin 64) (⟨16 * c.val + 2 * k.val + 1, by omega⟩ : Fin 4096))) :
    regionAt xp q lut b n = resultAt x q lut (⟨b.val / 64, by omega⟩ : Fin 8) (⟨b.val % 64, by omega⟩ : Fin 64) n := by
  unfold resultAt
  rw [sum_features, Fin.sum_univ_eight]
  unfold regionAt
  exact congrArg₂ (· + ·) (congrArg₂ (· + ·) (congrArg₂ (· + ·) (congrArg₂ (· + ·) (congrArg₂ (· + ·) (congrArg₂ (· + ·) (congrArg₂ (· + ·)
    (fieldSum_eq xp x q lut b n h0 h1 (0 : Fin 8)) (fieldSum_eq xp x q lut b n h0 h1 (1 : Fin 8))) (fieldSum_eq xp x q lut b n h0 h1 (2 : Fin 8))) (fieldSum_eq xp x q lut b n h0 h1 (3 : Fin 8))) (fieldSum_eq xp x q lut b n h0 h1 (4 : Fin 8))) (fieldSum_eq xp x q lut b n h0 h1 (5 : Fin 8))) (fieldSum_eq xp x q lut b n h0 h1 (6 : Fin 8))) (fieldSum_eq xp x q lut b n h0 h1 (7 : Fin 8))

end Cert.VQ

end
-- ==== Proof.PermTable.lean ====
/-
  The constant column permutation, in closed form.

  The program's 4096-entry integer table sends position `p = 512 k + 256 j + c` (with `k < 8`, `j < 2`, `c < 256`)
  to the feature number `16 c + 2 k + j`: the features are regrouped so that all those with the same code slot `k`
  and table entry `j` lie together, one per packed word `c`. The table is a literal, so the closed form is a finite
  check of its 4096 entries, done by evaluation; the three-coordinate statement then follows by arithmetic on the
  position's quotients and remainders.
-/
import proofs.«420444_j6030134083830_2_alg».proof.KernelIdeal

namespace Cert.VQ

/-- Every entry of the table, by its position's remainder mod 256, its quotient by 512 and the parity of its quotient
    by 256. -/
theorem lit0_perm_all : ∀ i : Fin 4096,
    Cert.KernelIdeal.lit0 i = BitVec.ofNat 32 (16 * (i.val % 256) + 2 * (i.val / 512) + i.val / 256 % 2) := by
  decide +kernel

/-- The table at position `512 k + 256 j + c` is the feature number `16 c + 2 k + j`. -/
theorem lit0_perm (k : Fin 8) (j : Fin 2) (c : Fin 256) :
    Cert.KernelIdeal.lit0 ⟨512 * k.val + 256 * j.val + c.val, by omega⟩ = BitVec.ofNat 32 (16 * c.val + 2 * k.val + j.val) := by
  rw [lit0_perm_all]
  congr 1
  show 16 * ((512 * k.val + 256 * j.val + c.val) % 256) + 2 * ((512 * k.val + 256 * j.val + c.val) / 512)
    + (512 * k.val + 256 * j.val + c.val) / 256 % 2 = 16 * c.val + 2 * k.val + j.val
  omega

end Cert.VQ
-- ==== Proof.GatherCols.lean ====
/-
  The column gather, read at an index.

  The operand is a 512 × 4096 matrix and the start indices a 4096 × 1 integer array. Each start index is one number,
  a column of the operand; the slice taken there is a whole column (512 rows, one column wide), and the column axis
  is dropped from the slice. So column `a` of the result is the operand's column number `idx[a, 0]`, that number
  read as a signed integer and clamped into `[0, 4095]`.

  Axis by axis, the operand index of result element `(b, a)` is: on the row axis, which the start index does not
  name and which is kept in the slice, start `0` plus the result's own row coordinate `b`; on the column axis,
  which the start index names and which is collapsed, the clamped start index plus offset `0`. Neither axis is a
  batching axis.
-/
import proofs.«420444_j6030134083830_2_alg».proof.Proof.Gen.KernelIdeal
import Idealize.ShloMosaic.Lib.ValueIdx

namespace Cert.VQ

open Idealize.ShloMosaic Idealize.ShloMosaic.ValueIdx

local notation "gd" => Cert.KernelIdeal.gather_S512x4096_S4096x1_S512x4096_0_1_n_n_1_1_5121

/-- Result element `(b, a)` of the gather is the operand at row `b` and at the column the start index `idx[a, 0]`
    names, read signed and clamped to the last column. -/
theorem gatherCols_apply {α : Type} (x : Cert.KernelIdeal.S512x4096.Idx → α) (idx : IVec Cert.KernelIdeal.S4096x1 32) (b : Fin 512) (a : Fin 4096) :
    Host.gather Cert.KernelIdeal.gather_S512x4096_S4096x1_S512x4096_0_1_n_n_1_1_5121 x idx (ix2 b a)
      = x (ix2 b ⟨min (idx (ix2 a (0 : Fin 1))).toInt.toNat 4095, by omega⟩) := by
  unfold Host.gather
  congr 1
  funext e
  refine Fin.ext ?_
  -- which operand axes the start index names, and which survive in the slice
  have h0 : (0 : Fin 2) ∉ (gd).startIndexMap := by decide
  have h1 : (1 : Fin 2) ∈ (gd).startIndexMap := by decide
  have k0 : (0 : Fin 2) ∈ (gd).sKept := by decide
  have k1 : (1 : Fin 2) ∉ (gd).sKept := by decide
  match e with
  | ⟨0, _⟩ =>
    -- the row axis: no start, no batching coordinate, the offset is the result's row
    show (gd).start (ix2 b a) idx 0 + (gd).batchCoord (ix2 b a) 0 + (gd).offCoord (ix2 b a) 0 = b.val
    rw [GatherDims.batchCoord_eq_zero _ _ _ List.not_mem_nil]
    unfold GatherDims.start GatherDims.offCoord
    rw [dif_neg h0, dif_pos k0]
    simp only [Nat.zero_add, Nat.add_zero]
    rfl
  | ⟨1, _⟩ =>
    -- the column axis: the clamped start index, no batching coordinate, no offset
    show (gd).start (ix2 b a) idx 1 + (gd).batchCoord (ix2 b a) 1 + (gd).offCoord (ix2 b a) 1 = _
    rw [GatherDims.batchCoord_eq_zero _ _ _ List.not_mem_nil, GatherDims.offCoord_eq_zero _ _ _ k1]
    simp only [Nat.add_zero]
    unfold GatherDims.start
    rw [dif_pos h1]
    -- the start index of result `(b, a)` is read at `[a, 0]`: the result's batch coordinate, then the one component
    have hsi : (gd).siIdx (ix2 b a) ⟨List.idxOf (1 : Fin 2) (gd).startIndexMap, List.idxOf_lt_length_iff.2 h1⟩
        = ix2 a (0 : Fin 1) := by
      funext u; refine Fin.ext ?_
      match u with
      | ⟨0, _⟩ => rfl
      | ⟨1, _⟩ => rfl
    rw [hsi]
    rfl

end Cert.VQ
-- ==== Proof.HostPrefix.lean ====
/-
  The permuted input, as the region finds it.

  Before its one region the program prepares the matrix the region reads as its third operand: the input
  `x : [8, 64, 4096]` is flattened to `[512, 4096]` (row `r = 64 a + b`), its columns are gathered through the
  constant column permutation, and the result changes float format, which over the extended reals changes nothing.
  The start indices of the gather are the permutation table itself: the program also forms "table + 4096" and selects
  between the two on a mask, but the mask is constantly false, so the selection always returns the table.

  Column `p = 512 k + 256 j + w` of the prepared matrix is therefore column `16 w + 2 k + j` of the flattened input:
  the permutation table at `p` is that number, it is below 4096, so neither the signed reading nor the clamp to the
  last column alters it; and element `(r, f)` of the flattened input is `x[r / 64, r % 64, f]`.
-/
import proofs.«420444_j6030134083830_2_alg».proof.Proof.Gen.KernelIdeal.Frame
import proofs.«420444_j6030134083830_2_alg».proof.Proof.PermTable
import proofs.«420444_j6030134083830_2_alg».proof.Proof.GatherCols
import Idealize.ShloMosaic.Lib.StableHlo.Run
import Idealize.ShloMosaic.Lib.Pipeline.Value

noncomputable section

namespace Cert.VQ

open Idealize.ShloMosaic Idealize.ShloMosaic.TcCoe Idealize.ShloMosaic.ValueIdx Idealize.SL.Sem Cert.KernelIdeal Cert.KernelIdeal.Gen

/-- The start indices handed to the gather: the table as a `4096 × 1` array, behind the selection on the constant
    mask between "table + 4096" and the table. -/
private abbrev permIdx : IVec S4096x1 32 :=
  broadcastInDim S4096x1 ![0] bcast_S4096_S4096x1_0
    (select (constantI S4096 1 0#1)
      (addi (fun i => lit0 (S4096.rowMajor i)) (broadcastInDim S4096 ![] bcast_S_S4096 (constantI S_ 32 4096#32)))
      (fun i => lit0 (S4096.rowMajor i)))

/-- Start index `[p, 0]` is the table's entry `p`: the added unit axis is read through, the mask's bit is `0` so the
    selection gives its second operand, and the flat position of a rank-1 index is its coordinate. -/
private theorem permIdx_apply (p : Fin 4096) : permIdx (ix2 p (0 : Fin 1)) = lit0 p := by
  unfold permIdx
  rw [broadcastInDim_apply _ bcast_S4096_S4096x1_0 _ (ix2 p (0 : Fin 1)) (ix1 p) (fun a => match a with
    | ⟨0, _⟩ => by show p.val = if (4096 : Nat) = 1 then 0 else p.val; rw [if_neg (by decide)])]
  rw [select_apply]
  show Scalar.select 0#1 _ _ = _
  rw [select_zero]
  exact congrArg lit0 (Fin.ext (Shape.rowMajor_val_one _))

/-- The prepared matrix as one expression in the launched input: the host operations before the region, composed. -/
private theorem xperm_term (m : (ℓ : Loc nD τ sig) → Buf (Elt Ideal) ℓ) (c : Dev nD) :
    (V m c main_v6 : S512x4096.Idx → EReal)
      = truncf (F := Ideal) .bf16 (Host.gather gather_S512x4096_S4096x1_S512x4096_0_1_n_n_1_1_5121
          (shapeCast S512x4096 (m ((c : Thread nD τ).loc main_arg0) : S8x64x4096.Idx → EReal) shapeCasts_S8x64x4096_S512x4096)
          permIdx) bitsLt_bf16_f32 := by
  dsimp only [Gen.V, Gen.V0]
  simp only [Gen.hostOps0, List.flatten_cons, List.flatten_nil, List.append_nil, List.cons_append, List.nil_append]
  after_results
  rfl

/-- Row `b`, column `512 k + 256 j + w` of the prepared matrix is `x[b / 64, b % 64, 16 w + 2 k + j]`. -/
theorem xperm_apply (m : (ℓ : Loc nD τ sig) → Buf (Elt Ideal) ℓ) (c : Dev nD) (b : Fin 512) (k : Fin 8) (j : Fin 2) (w : Fin 256) :
    (V m c main_v6 : S512x4096.Idx → EReal) (ix2 b ⟨512 * k.val + 256 * j.val + w.val, by omega⟩)
      = (m ((c : Thread nD τ).loc main_arg0) : S8x64x4096.Idx → EReal)
          (ix3 (⟨b.val / 64, by omega⟩ : Fin 8) (⟨b.val % 64, by omega⟩ : Fin 64) (⟨16 * w.val + 2 * k.val + j.val, by omega⟩ : Fin 4096)) := by
  -- the format change is the identity; the gather reads row `b` at the clamped start index of column `p`
  rw [xperm_term, truncf_apply, gatherCols_apply]
  -- the flattening reads the input at the index with the same flat position
  refine shapeCast_apply _ shapeCasts_S8x64x4096_S512x4096 _ _ ?_
  rw [Shape.rowMajor_val_three, Shape.rowMajor_val_two]
  -- the feature number is a small non-negative word: its signed reading is itself
  have hn : (BitVec.ofNat 32 (16 * w.val + 2 * k.val + j.val)).toNat = 16 * w.val + 2 * k.val + j.val := by
    rw [BitVec.toNat_ofNat]; exact Nat.mod_eq_of_lt (by omega)
  have hi : (BitVec.ofNat 32 (16 * w.val + 2 * k.val + j.val)).toInt = ((16 * w.val + 2 * k.val + j.val : Nat) : Int) := by
    rw [BitVec.toInt_eq_toNat_of_lt (by rw [hn]; omega), hn]
  show (b.val / 64 * 64 + b.val % 64) * 4096 + (16 * w.val + 2 * k.val + j.val)
    = b.val * 4096 + min (permIdx (ix2 (⟨512 * k.val + 256 * j.val + w.val, by omega⟩ : Fin 4096) (0 : Fin 1))).toInt.toNat 4095
  rw [permIdx_apply, lit0_perm k j w, hi, Int.toNat_natCast]
  omega

end Cert.VQ

end
-- ==== Proof.KernelRun.lean ====
/-
  The kernel program's run, with its result named.

  After the region the host reshapes the 512 × 11008 result to 8 × 64 × 11008: element `(a, b, n)` is element
  `(64 a + b, n)` of the region's array, whose row `64 a + b` is built from row `(a, b)` of the input because the
  host's column permutation before the region sends column `512 k + 256 j + c` to feature `16 c + 2 k + j`. So the
  program ends with the specification's array in its result buffer, and its three arguments as they were.
-/
import proofs.«420444_j6030134083830_2_alg».proof.Proof.RegionArray
import proofs.«420444_j6030134083830_2_alg».proof.Proof.HostPrefix
import Idealize.ShloMosaic.Lib.StableHlo.Run

set_option maxRecDepth 65536

noncomputable section

open scoped BigOperators

namespace Cert.VQ

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- Row `b` of the region's array is the specification's row `(b / 64, b % 64)`. -/
theorem regionOut_apply (c : Dev nD) (b : Fin 512) (n : Fin 11008) :
    regionOut (V m c main_v6) (m ((c : Thread nD τ).loc main_arg1)) (m ((c : Thread nD τ).loc main_arg2)) (ix2 b n)
      = resultAt (m ((c : Thread nD τ).loc main_arg0)) (m ((c : Thread nD τ).loc main_arg1)) (m ((c : Thread nD τ).loc main_arg2))
          (⟨b.val / 64, by omega⟩ : Fin 8) (⟨b.val % 64, by omega⟩ : Fin 64) n := by
  show regionAt (V m c main_v6) (m ((c : Thread nD τ).loc main_arg1)) (m ((c : Thread nD τ).loc main_arg2)) b n = _
  refine regionAt_eq (V m c main_v6) (m ((c : Thread nD τ).loc main_arg0)) _ _ b n ?_ ?_
  · intro k w
    have e := xperm_apply m c b k (0 : Fin 2) w
    have i1 : (⟨512 * k.val + 256 * (0 : Fin 2).val + w.val, by omega⟩ : Fin 4096) = ⟨512 * k.val + w.val, by omega⟩ :=
      Fin.ext (by show 512 * k.val + 256 * 0 + w.val = 512 * k.val + w.val; omega)
    have i2 : (⟨16 * w.val + 2 * k.val + (0 : Fin 2).val, by omega⟩ : Fin 4096) = ⟨16 * w.val + 2 * k.val, by omega⟩ :=
      Fin.ext (by show 16 * w.val + 2 * k.val + 0 = 16 * w.val + 2 * k.val; omega)
    rw [i1, i2] at e
    exact e
  · intro k w
    have e := xperm_apply m c b k (1 : Fin 2) w
    have i1 : (⟨512 * k.val + 256 * (1 : Fin 2).val + w.val, by omega⟩ : Fin 4096) = ⟨512 * k.val + 256 + w.val, by omega⟩ :=
      Fin.ext (by show 512 * k.val + 256 * 1 + w.val = 512 * k.val + 256 + w.val; omega)
    have i2 : (⟨16 * w.val + 2 * k.val + (1 : Fin 2).val, by omega⟩ : Fin 4096) = ⟨16 * w.val + 2 * k.val + 1, by omega⟩ :=
      Fin.ext (by show 16 * w.val + 2 * k.val + 1 = 16 * w.val + 2 * k.val + 1; rfl)
    rw [i1, i2] at e
    exact e

/-- The reshaped result is the specification's array. -/
theorem reshaped_eq (c : Dev nD) :
    shapeCast S8x64x11008 ((dats m 0 c).arrAt 3 cfg0.N) shapeCasts_S512x11008_S8x64x11008
      = result (m ((c : Thread nD τ).loc main_arg0)) (m ((c : Thread nD τ).loc main_arg1)) (m ((c : Thread nD τ).loc main_arg2)) := by
  rw [final]
  funext i
  obtain ⟨a, b, n, rfl⟩ : ∃ (a : Fin 8) (b : Fin 64) (n : Fin 11008), i = ix3 a b n := ⟨i 0, i 1, i 2, eq_ix3 i⟩
  rw [result_apply]
  rw [shapeCast_apply _ shapeCasts_S512x11008_S8x64x11008 (ix3 a b n) (ix2 (⟨a.val * 64 + b.val, by omega⟩ : Fin 512) n)
    (by rewrite [Shape.rowMajor_val_two, Shape.rowMajor_val_three]
        show (a.val * 64 + b.val) * 11008 + n.val = (a.val * 64 + b.val) * 11008 + n.val; rfl)]
  rw [regionOut_apply]
  have ea : (⟨(a.val * 64 + b.val) / 64, by omega⟩ : Fin 8) = a := Fin.ext (by show (a.val * 64 + b.val) / 64 = a.val; omega)
  have eb : (⟨(a.val * 64 + b.val) % 64, by omega⟩ : Fin 64) = b := Fin.ext (by show (a.val * 64 + b.val) % 64 = b.val; omega)
  show resultAt _ _ _ (⟨(a.val * 64 + b.val) / 64, _⟩ : Fin 8) (⟨(a.val * 64 + b.val) % 64, _⟩ : Fin 64) n = _
  rw [ea, eb]

/-- The result buffer after the host's last operation: the reshape of the region's array. -/
theorem tail_eq (c : Dev nD) :
    Pipeline.afterTail₀ cfgs (dats m) 0 (V0 m) [hostOps1] c main_v8
      = shapeCast S8x64x11008 ((dats m 0 c).arrAt 3 cfg0.N) shapeCasts_S512x11008_S8x64x11008 := by
  unfold Pipeline.afterTail₀
  show StableHlo.after hostOps1 _ (Proc.devRef .tc main_v8) = _
  after_results
  exact congrArg (fun a => shapeCast S8x64x11008 a shapeCasts_S512x11008_S8x64x11008)
    (Pipeline.withArrays_arr spec0 launch0.win.arr_inj c _ _ 3)

/-- THE RUN: every weakly fair execution of the kernel program terminates with the specification's array in its result
    buffer and its arguments unchanged. -/
theorem kernel_run : θ_run defs (onTc (τ := τ) (main (F := Ideal))) ⟨m, fun _ => 0, ρ⟩ (fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans ((tail_eq m c).trans (reshaped_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.VQ

end
-- ==== Proof.GatherRows.lean ====
/-
  The table lookup of the reference program, read at one index.

  The reference fetches rows of the 16 x 2 table with a gather whose start indices are the codes: result element
  (r, c, j) is entry j of the table row numbered by the start index at (r, c, 0), that start index read as a signed
  integer and clamped into the sixteen rows. Table axis 0 is a collapsed axis named by the start index map, so its
  coordinate is the clamped start alone; table axis 1 is the one offset axis, with start zero, so its coordinate is the
  result's last coordinate.
-/
import proofs.«420444_j6030134083830_2_alg».proof.Proof.Gen.ReferenceIdeal
import Idealize.ShloMosaic.Lib.ValueIdx

namespace Cert.VQ

open Idealize.ShloMosaic Idealize.ShloMosaic.ValueIdx

/-- The gather of table rows at result index `(r, c, j)`: entry `j` of the row the clamped start index selects. -/
theorem gatherRows_apply {α : Type} (x : Cert.ReferenceIdeal.S16x2.Idx → α) (idx : IVec Cert.ReferenceIdeal.S11008x2048x1 32) (r : Fin 11008) (c : Fin 2048) (j : Fin 2) :
    Host.gather Cert.ReferenceIdeal.gather_S16x2_S11008x2048x1_S11008x2048x2_2_0_n_n_0_2_12 x idx (ix3 r c j)
      = x (ix2 (⟨min (idx (ix3 r c (0 : Fin 1))).toInt.toNat 15, by omega⟩ : Fin 16) j) := by
  unfold Host.gather
  congr 1
  funext a
  refine Fin.ext ?_
  match a with
  | ⟨0, _⟩ =>
    -- the row axis: collapsed, and the one axis the start index map names
    show Cert.ReferenceIdeal.gather_S16x2_S11008x2048x1_S11008x2048x2_2_0_n_n_0_2_12.start (ix3 r c j) idx 0
        + Cert.ReferenceIdeal.gather_S16x2_S11008x2048x1_S11008x2048x2_2_0_n_n_0_2_12.batchCoord (ix3 r c j) 0
        + Cert.ReferenceIdeal.gather_S16x2_S11008x2048x1_S11008x2048x2_2_0_n_n_0_2_12.offCoord (ix3 r c j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S16x2_S11008x2048x1_S11008x2048x2_2_0_n_n_0_2_12.startIndexMap
      from List.mem_singleton.mpr rfl)]
    have hsi : Cert.ReferenceIdeal.gather_S16x2_S11008x2048x1_S11008x2048x2_2_0_n_n_0_2_12.siIdx (ix3 r c j)
        ⟨List.idxOf (0 : Fin 2) Cert.ReferenceIdeal.gather_S16x2_S11008x2048x1_S11008x2048x2_2_0_n_n_0_2_12.startIndexMap,
          List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    -- the entry axis: the one offset axis, outside the start index map
    show Cert.ReferenceIdeal.gather_S16x2_S11008x2048x1_S11008x2048x2_2_0_n_n_0_2_12.start (ix3 r c j) idx 1
        + Cert.ReferenceIdeal.gather_S16x2_S11008x2048x1_S11008x2048x2_2_0_n_n_0_2_12.batchCoord (ix3 r c j) 1
        + Cert.ReferenceIdeal.gather_S16x2_S11008x2048x1_S11008x2048x2_2_0_n_n_0_2_12.offCoord (ix3 r c j) 1 = j.val
    rw [GatherDims.batchCoord_eq_zero _ _ _ List.not_mem_nil]
    unfold GatherDims.start
    rw [dif_neg (show ¬ (1 : Fin 2) ∈ Cert.ReferenceIdeal.gather_S16x2_S11008x2048x1_S11008x2048x2_2_0_n_n_0_2_12.startIndexMap
      from by decide)]
    simp only [Nat.add_zero, Nat.zero_add]
    unfold GatherDims.offCoord
    rw [dif_pos ((GatherDims.mem_sKept _ _).mpr ⟨by decide, List.not_mem_nil⟩)]
    rfl

end Cert.VQ
-- ==== Proof.RefValue.lean ====
/-
  The reference program computes the dequantised product.

  Read one element at a time, the reference is: split every packed word into its eight 4-bit codes (shift right by
  0, 4, ..., 28 and keep the low four bits), lay the codes of a weight row out flat (code k of word w at position
  8 w + k), replace a negative code by itself plus sixteen (never taken: a 4-bit field is not negative), fetch for
  every code its row of the table, lay the two entries of every fetched row out flat (entry j of position m at
  feature 2 m + j), and multiply the input rows against the transposed weights. So weight row n at feature f is
  entry f mod 2 of the table row selected by code (f / 2) mod 8 of word f / 16, which is the weight of the
  specification, and the product is the specification's sum over the features.
-/
import proofs.«420444_j6030134083830_2_alg».proof.Proof.Gen.ReferenceIdeal.Read
import proofs.«420444_j6030134083830_2_alg».proof.Proof.GatherRows
import proofs.«420444_j6030134083830_2_alg».proof.Proof.Mux
import proofs.«420444_j6030134083830_2_alg».proof.Proof.Spec

noncomputable section

open scoped BigOperators

namespace Cert.VQ

open Idealize.ShloMosaic Idealize.ShloMosaic.ValueIdx Cert.ReferenceIdeal

/-! ## Words -/

/-- The shift amount of code `k`: `k` times four, with no wrap-around since `k` is below eight. -/
private theorem shiftAmount (k : Fin 8) : IntOp.muli (BitVec.ofNat 32 k.val) 4#32 = BitVec.ofNat 32 (4 * k.val) := by
  unfold IntOp.muli
  apply BitVec.eq_of_toNat_eq
  rw [BitVec.toNat_mul, BitVec.toNat_ofNat, BitVec.toNat_ofNat, BitVec.toNat_ofNat]
  have := k.isLt
  omega

/-- That shift amount is below the word width. -/
private theorem shiftAmount_lt (k : Fin 8) : (BitVec.ofNat 32 (4 * k.val)).toNat < 32 := by
  rw [BitVec.toNat_ofNat]
  have := k.isLt
  omega

/-- A word below sixteen is not negative as a signed integer, so the signed comparison with zero fails. -/
private theorem slt_zero_of_small (c : BitVec 32) (h : c.toNat < 16) : IntOp.cmpi .slt c 0#32 = 0#1 := by
  have h2 : c.toInt = (c.toNat : Int) := BitVec.toInt_eq_toNat_of_lt (by omega)
  have h3 : c.slt 0#32 = false := by
    unfold BitVec.slt
    rw [h2, BitVec.toInt_zero]
    exact decide_eq_false (by omega)
  show BitVec.ofBool (c.slt 0#32) = 0#1
  rw [h3]
  rfl

/-! ## Index arithmetic on the literal shapes -/

/-- Left factor: row `(a, b)` of the input, flattened to row `64 a + b` and read back, at feature `f`. -/
private theorem lhs_index (a : Fin 8) (b : Fin 64) (n : Fin 11008) (f : Fin 4096) :
    Read.idx_main_v19 (Read.lidx_main_v21 (Read.idx_main_v22 (ix3 a b n)) f) = ix3 a b f := by
  funext ax
  refine Fin.ext ?_
  have ha := a.isLt; have hb := b.isLt; have hn := n.isLt; have hf := f.isLt
  match ax with
  | ⟨0, _⟩ =>
    show (((a.val * 64 + b.val) * 11008 + n.val) / 11008 * 4096 + f.val) / 262144 = a.val
    omega
  | ⟨1, _⟩ =>
    show (((a.val * 64 + b.val) * 11008 + n.val) / 11008 * 4096 + f.val) / 4096 % 64 = b.val
    omega
  | ⟨2, _⟩ =>
    show (((a.val * 64 + b.val) * 11008 + n.val) / 11008 * 4096 + f.val) % 4096 = f.val
    omega

/-- Right factor: weight row `n`, feature `f`, is fetched entry `f mod 2` at position `f / 2` of that row. -/
private theorem rhs_index (a : Fin 8) (b : Fin 64) (n : Fin 11008) (f : Fin 4096) :
    Read.idx_main_v18 (Read.idx_main_v20 (Read.ridx_main_v21 (Read.idx_main_v22 (ix3 a b n)) f))
      = ix3 n (⟨f.val / 2, by omega⟩ : Fin 2048) (⟨f.val % 2, by omega⟩ : Fin 2) := by
  funext ax
  refine Fin.ext ?_
  have ha := a.isLt; have hb := b.isLt; have hn := n.isLt; have hf := f.isLt
  match ax with
  | ⟨0, _⟩ =>
    show ((((a.val * 64 + b.val) * 11008 + n.val) % 11008) * 4096 + f.val) / 4096 = n.val
    omega
  | ⟨1, _⟩ =>
    show ((((a.val * 64 + b.val) * 11008 + n.val) % 11008) * 4096 + f.val) / 2 % 2048 = f.val / 2
    omega
  | ⟨2, _⟩ =>
    show ((((a.val * 64 + b.val) * 11008 + n.val) % 11008) * 4096 + f.val) % 2 = f.val % 2
    omega

/-- The start index of position `(n, m)` is the code at `(n, m)`. -/
private theorem start_index (n : Fin 11008) (m : Fin 2048) :
    Read.idx_main_v16 (ix3 n m (0 : Fin 1)) = ix2 n m := by
  funext ax
  match ax with
  | ⟨0, _⟩ => rfl
  | ⟨1, _⟩ => rfl

/-- Position `m` of a flat row of codes is code `m mod 8` of word `m / 8`. -/
private theorem code_index (n : Fin 11008) (m : Fin 2048) :
    Read.idx_main_v10 (ix2 n m) = ix3 n (⟨m.val / 8, by omega⟩ : Fin 256) (⟨m.val % 8, by omega⟩ : Fin 8) := by
  funext ax
  refine Fin.ext ?_
  have hn := n.isLt; have hm := m.isLt
  match ax with
  | ⟨0, _⟩ =>
    show (n.val * 2048 + m.val) / 2048 = n.val
    omega
  | ⟨1, _⟩ =>
    show (n.val * 2048 + m.val) / 8 % 256 = m.val / 8
    omega
  | ⟨2, _⟩ =>
    show (n.val * 2048 + m.val) % 8 = m.val % 8
    omega

/-- The word a code is cut from does not depend on the code's number. -/
private theorem word_index (n : Fin 11008) (w : Fin 256) (k : Fin 8) :
    Read.idx_main_v3 (Read.idx_main_v5 (ix3 n w k)) = ix2 n w := by
  funext ax
  match ax with
  | ⟨0, _⟩ => rfl
  | ⟨1, _⟩ => rfl

/-! ## The codes -/

/-- Code `k` of word `w` of weight row `n`, as the reference computes it, is the 4-bit field at bit `4 k`. -/
private theorem code_value (x1 : (⟨S11008x256, .i32⟩ : BufTy).Contents (Elt Ideal)) (n : Fin 11008) (w : Fin 256) (k : Fin 8) :
    Read.val_main_v9 (F := Ideal) x1 (ix3 n w k) = codeAt (x1 (ix2 n w)) (BitVec.ofNat 32 (4 * k.val)) := by
  rw [Read.val_main_v9_apply, Read.val_main_v8_apply, Read.val_main_c_0_apply, Read.val_main_v7_apply,
    Read.val_main_v5_apply, Read.val_main_v3_apply, Read.val_main_v6_apply, Read.val_main_v4_apply,
    Read.val_main_v2_apply, Read.val_main_v0_apply, Read.val_main_v1_apply, Read.val_main_c_apply, word_index]
  show IntOp.andi (IntOp.shrsi .host (x1 (ix2 n w)) (IntOp.muli (BitVec.ofNat 32 k.val) 4#32)) 15#32 = _
  rw [shiftAmount k, codeAt_host _ _ (shiftAmount_lt k)]

/-- The start index the table lookup uses at position `(n, m)`: the 4-bit field itself, the branch for negative
    codes never being taken. -/
private theorem start_value (x1 : (⟨S11008x256, .i32⟩ : BufTy).Contents (Elt Ideal)) (n : Fin 11008) (m : Fin 2048) :
    Read.val_main_v15 (F := Ideal) x1 (ix2 n m)
      = codeAt (x1 (ix2 n (⟨m.val / 8, by omega⟩ : Fin 256))) (BitVec.ofNat 32 (4 * (m.val % 8))) := by
  have h10 : Read.val_main_v10 (F := Ideal) x1 (ix2 n m)
      = codeAt (x1 (ix2 n (⟨m.val / 8, by omega⟩ : Fin 256))) (BitVec.ofNat 32 (4 * (m.val % 8))) := by
    rw [Read.val_main_v10_apply, code_index n m, code_value]
  rw [Read.val_main_v15_apply, Read.val_main_v12_apply, Read.val_main_v11_apply, Read.val_main_c_1_apply, h10,
    slt_zero_of_small _ (codeAt_lt _ _), select_zero]

/-! ## The weights and the product -/

/-- The reference's transposed weight array at `(f, n)` is the specification's weight `W[n, f]`. -/
private theorem weight_value (x1 : (⟨S11008x256, .i32⟩ : BufTy).Contents (Elt Ideal)) (x2 : (⟨S16x2, .f32⟩ : BufTy).Contents (Elt Ideal))
    (a : Fin 8) (b : Fin 64) (n : Fin 11008) (f : Fin 4096) :
    Read.val_main_v20 (F := Ideal) x1 x2 (Read.ridx_main_v21 (Read.idx_main_v22 (ix3 a b n)) f) = weight x1 x2 n f := by
  have h16 : Read.val_main_v16 (F := Ideal) x1 (ix3 n (⟨f.val / 2, by omega⟩ : Fin 2048) (0 : Fin 1))
      = codeAt (x1 (ix2 n (⟨f.val / 16, by omega⟩ : Fin 256))) (BitVec.ofNat 32 (4 * (f.val / 2 % 8))) := by
    rw [Read.val_main_v16_apply, start_index, start_value]
    have hw : (⟨f.val / 2 / 8, by omega⟩ : Fin 256) = ⟨f.val / 16, by omega⟩ := Fin.ext (show f.val / 2 / 8 = f.val / 16 by omega)
    rw [hw]
  rw [Read.val_main_v20_apply, Read.val_main_v18_apply, rhs_index a b n f]
  unfold Read.val_main_v17
  rw [gatherRows_apply]
  unfold weight lutRow
  congr 1
  congr 1
  refine Fin.ext ?_
  show min (Read.val_main_v16 (F := Ideal) x1 (ix3 n (⟨f.val / 2, by omega⟩ : Fin 2048) (0 : Fin 1))).toInt.toNat 15 = _
  rw [h16]

/-- THE REFERENCE'S RESULT is the dequantised product of the specification. -/
theorem ref_result (x0 : (⟨S8x64x4096, .f32⟩ : BufTy).Contents (Elt Ideal)) (x1 : (⟨S11008x256, .i32⟩ : BufTy).Contents (Elt Ideal)) (x2 : (⟨S16x2, .f32⟩ : BufTy).Contents (Elt Ideal)) :
    Cert.ReferenceIdeal.Read.val_main_v22 (F := Ideal) x0 x1 x2 = Cert.VQ.result x0 x1 x2 := by
  funext i
  obtain ⟨a, b, n, rfl⟩ : ∃ (a : Fin 8) (b : Fin 64) (n : Fin 11008), i = ix3 a b n := ⟨i 0, i 1, i 2, eq_ix3 i⟩
  rw [result_apply]
  unfold resultAt
  rw [Read.val_main_v22_apply, Read.val_main_v21_apply]
  refine Finset.sum_congr rfl fun f _ => ?_
  rw [weight_value, Read.val_main_v19_apply, lhs_index]

end Cert.VQ

end
-- ==== Proof.lean ====
/-
  A 4-bit vector-quantised linear layer: the kernel and its jnp reference compute the same array over the extended reals.

  Each 32-bit word of `qweight` packs eight 4-bit codes; a code selects a row of the 16 × 2 table `lut`, whose two
  entries are two consecutive input features, so word `c`, code `k`, entry `j` of weight row `n` is the weight of feature
  `16 c + 2 k + j`. The reference dequantises the whole weight and multiplies: `out[a, b, n] = ∑ f, x[a, b, f] · W[n, f]`.
  The kernel never forms `W`: it permutes the input's columns once (column `512 k + 256 j + c` is feature `16 c + 2 k + j`),
  and for each block of 256 weight rows and each of the eight codes builds the two 256 × 256 tiles of table entries — by a
  four-level selection tree on the code's binary digits in place of a table lookup — and adds the two products with the
  matching 256 columns of the permuted input. Read at one element that is the same sum over the 4096 features, regrouped
  by (code, entry, word); regrouping a finite sum uses only that addition is commutative and associative, so nothing is
  asked of the inputs' finiteness. The frames are the generated ones; the idealisation rewrote nothing.
-/
import proofs.«420444_j6030134083830_2_alg».proof.Defs
import proofs.«420444_j6030134083830_2_alg».proof.Proof.Gen.Kernel
import proofs.«420444_j6030134083830_2_alg».proof.Proof.Gen.Kernel.Skeleton
import proofs.«420444_j6030134083830_2_alg».proof.Proof.Gen.Kernel.Launch
import proofs.«420444_j6030134083830_2_alg».proof.Proof.Gen.Kernel.Points
import proofs.«420444_j6030134083830_2_alg».proof.Proof.Gen.Kernel.Frame
import proofs.«420444_j6030134083830_2_alg».proof.Proof.Gen.KernelIdeal
import proofs.«420444_j6030134083830_2_alg».proof.Proof.Gen.KernelIdeal.Skeleton
import proofs.«420444_j6030134083830_2_alg».proof.Proof.Gen.KernelIdeal.Launch
import proofs.«420444_j6030134083830_2_alg».proof.Proof.Gen.KernelIdeal.Points
import proofs.«420444_j6030134083830_2_alg».proof.Proof.Gen.KernelIdeal.Frame
import proofs.«420444_j6030134083830_2_alg».proof.Proof.Gen.ReferenceIdeal
import proofs.«420444_j6030134083830_2_alg».proof.Proof.Gen.Pre_finite_inputs
import proofs.«420444_j6030134083830_2_alg».proof.Proof.Gen.ReferenceIdeal.Run
import proofs.«420444_j6030134083830_2_alg».proof.Proof.Gen.ReferenceIdeal.Read
import proofs.«420444_j6030134083830_2_alg».proof.Proof.KernelRun
import proofs.«420444_j6030134083830_2_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the array `Cert.VQ.result` of those arguments:
    the kernel by its frame run read block by block, the reference by its run read operation by operation. -/
theorem algebraic : Cert.algebraic_KernelIdeal_ReferenceIdeal := by
  intro m ρ m' ρ' _ hagree
  refine ⟨fun c => Cert.VQ.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.VQ.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.VQ.ref_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
